-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x5 : Shape := ⟨2, ![12000, 5]⟩
abbrev S12000x12000 : Shape := ⟨2, ![12000, 12000]⟩
abbrev S1000000 : Shape := ⟨1, ![1000000]⟩
abbrev S_ : Shape := ⟨0, ![]⟩

class Facts : Prop where
  bcast_S_S12000x5 : S_.BroadcastsInDim S12000x5 (![] : Fin 0 → Fin S12000x5.rank)
  reducesTo_S12000x5_S_d0_1 : S12000x5.ReducesTo [0, 1] S_
  h_S_ : 0 < S_.numel
  bcast_S_S12000x12000 : S_.BroadcastsInDim S12000x12000 (![] : Fin 0 → Fin S12000x12000.rank)
  reducesTo_S12000x12000_S_d0_1 : S12000x12000.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg3 : IVec S1000000 32) (main_arg4 : IVec S1000000 32) (main_v13 : IVec S_ 1) (main_v15 : IVec S1000000 1) (main_c_5 : IVec S_ 1) : IVec S_ 1 :=
  let main_v16 : IVec S_ 1 := (fun x v => Host.reduce IntOp.andi x v reducesTo_S1000000_S_d0 h_S_) main_v15 main_c_5
  let main_v17 : IVec S_ 1 := andi main_v13 main_v16
  let main_c_6 : IVec S_ 32 := constantI S_ 32 12000#32
  let main_v18 : IVec S1000000 32 := broadcastInDim S1000000 ![] bcast_S_S1000000 main_c_6
  let main_v19 : IVec S1000000 1 := cmpi .slt main_arg3 main_v18
  let main_c_7 : IVec S_ 1 := constantI S_ 1 1#1
  let main_v20 : IVec S_ 1 := (fun x v => Host.reduce IntOp.andi x v reducesTo_S1000000_S_d0 h_S_) main_v19 main_c_7
  let main_v21 : IVec S_ 1 := andi main_v17 main_v20
  let main_c_8 : IVec S_ 32 := constantI S_ 32 4294955296#32
  let main_v22 : IVec S1000000 32 := broadcastInDim S1000000 ![] bcast_S_S1000000 main_c_8
  let main_v23 : IVec S1000000 1 := cmpi .sge main_arg4 main_v22
  let main_c_9 : IVec S_ 1 := constantI S_ 1 1#1
  let main_v24 : IVec S_ 1 := (fun x v => Host.reduce IntOp.andi x v reducesTo_S1000000_S_d0 h_S_) main_v23 main_c_9
  let main_v25 : IVec S_ 1 := andi main_v21 main_v24
  let main_c_10 : IVec S_ 32 := constantI S_ 32 12000#32
  let main_v26 : IVec S1000000 32 := broadcastInDim S1000000 ![] bcast_S_S1000000 main_c_10
  let main_v27 : IVec S1000000 1 := cmpi .slt main_arg4 main_v26
  let main_c_11 : IVec S_ 1 := constantI S_ 1 1#1
  let main_v28 : IVec S_ 1 := (fun x v => Host.reduce IntOp.andi x v reducesTo_S1000000_S_d0 h_S_) main_v27 main_c_11
  let main_v29 : IVec S_ 1 := andi main_v25 main_v28
  main_v29

def fn {F : FTy → Type} [FloatOps F] (main_arg0 : FVec F S12000x5 .f32) (main_arg1 : FVec F S12000x5 .f32) (main_arg2 : FVec F S12000x12000 .f32) (main_arg3 : IVec S1000000 32) (main_arg4 : IVec S1000000 32) : IVec S_ 1 :=
  let main_v0 : FVec F S12000x5 .f32 := Host.absf main_arg0
  let main_cst : FVec F S_ .f32 := constant S_ .f32 0x7F800000#32
  let main_v1 : FVec F S12000x5 .f32 := broadcastInDim S12000x5 ![] bcast_S_S12000x5 main_cst
  let main_v2 : IVec S12000x5 1 := cmpf .olt main_v0 main_v1
  let main_c : IVec S_ 1 := constantI S_ 1 1#1
  let main_v3 : IVec S_ 1 := (fun x v => Host.reduce IntOp.andi x v reducesTo_S12000x5_S_d0_1 h_S_) main_v2 main_c
  let main_v4 : FVec F S12000x5 .f32 := Host.absf main_arg1
  let main_cst_0 : FVec F S_ .f32 := constant S_ .f32 0x7F800000#32
  let main_v5 : FVec F S12000x5 .f32 := broadcastInDim S12000x5 ![] bcast_S_S12000x5 main_cst_0
  let main_v6 : IVec S12000x5 1 := cmpf .olt main_v4 main_v5
  let main_c_1 : IVec S_ 1 := constantI S_ 1 1#1
  let main_v7 : IVec S_ 1 := (fun x v => Host.reduce IntOp.andi x v reducesTo_S12000x5_S_d0_1 h_S_) main_v6 main_c_1
  let main_v8 : IVec S_ 1 := andi main_v3 main_v7
  let main_v9 : FVec F S12000x12000 .f32 := Host.absf main_arg2
  let main_cst_2 : FVec F S_ .f32 := constant S_ .f32 0x7F800000#32
  let main_v10 : FVec F S12000x12000 .f32 := broadcastInDim S12000x12000 ![] bcast_S_S12000x12000 main_cst_2
  let main_v11 : IVec S12000x12000 1 := cmpf .olt main_v9 main_v10
  let main_c_3 : IVec S_ 1 := constantI S_ 1 1#1
  let main_v12 : IVec S_ 1 := (fun x v => Host.reduce IntOp.andi x v reducesTo_S12000x12000_S_d0_1 h_S_) main_v11 main_c_3
  let main_v13 : IVec S_ 1 := andi main_v8 main_v12
  let main_c_4 : IVec S_ 32 := constantI S_ 32 4294955296#32
  let main_v14 : IVec S1000000 32 := broadcastInDim S1000000 ![] bcast_S_S1000000 main_c_4
  let main_v15 : IVec S1000000 1 := cmpi .sge main_arg3 main_v14
  let main_c_5 : IVec S_ 1 := constantI S_ 1 1#1
  fn_part1 (F := F) main_arg3 main_arg4 main_v13 main_v15 main_c_5
-- ==== Kernel.lean ====
abbrev S12000x5 : Shape := ⟨2, ![12000, 5]⟩
abbrev S12000x12000 : Shape := ⟨2, ![12000, 12000]⟩
abbrev S1000000 : Shape := ⟨1, ![1000000]⟩
abbrev S5x12000 : Shape := ⟨2, ![5, 12000]⟩
abbrev S16x128 : Shape := ⟨2, ![16, 128]⟩
abbrev S120x12000 : Shape := ⟨2, ![120, 12000]⟩
abbrev S120x5 : Shape := ⟨2, ![120, 5]⟩
abbrev S8x128 : Shape := ⟨2, ![8, 128]⟩
abbrev S120 : Shape := ⟨1, ![120]⟩
abbrev S120x1 : Shape := ⟨2, ![120, 1]⟩
abbrev S1 : Shape := ⟨1, ![1]⟩
abbrev S1x1 : Shape := ⟨2, ![1, 1]⟩
abbrev S_ : Shape := ⟨0, ![]⟩
abbrev S1000000x1 : Shape := ⟨2, ![1000000, 1]⟩
abbrev S1000000x5 : Shape := ⟨2, ![1000000, 5]⟩
abbrev S1000000x4 : Shape := ⟨2, ![1000000, 4]⟩

abbrev nBuf : Space → Nat
  | .hbm => 75
  | .vmem => 7
  | .smem => 0
  | _ => 0

abbrev bufTy : (tb : Table) → Fin (tcTables nBuf tb) → BufTy
  | .hbm, ⟨0, _⟩ => ⟨S12000x5, .f32⟩
  | .hbm, ⟨1, _⟩ => ⟨S12000x5, .f32⟩
  | .hbm, ⟨2, _⟩ => ⟨S12000x12000, .f32⟩
  | .hbm, ⟨3, _⟩ => ⟨S1000000, .i32⟩
  | .hbm, ⟨4, _⟩ => ⟨S1000000, .i32⟩
  | .hbm, ⟨5, _⟩ => ⟨S5x12000, .f32⟩
  | .hbm, ⟨6, _⟩ => ⟨S16x128, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S12000x5, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S12000x5, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1, .i32⟩
  | .hbm, ⟨33, _⟩ => ⟨S_, .i32⟩
  | .hbm, ⟨34, _⟩ => ⟨S1000000x1, .i32⟩
  | .hbm, ⟨35, _⟩ => ⟨S1000000x1, .i1⟩
  | .hbm, ⟨36, _⟩ => ⟨S1x1, .i32⟩
  | .hbm, ⟨37, _⟩ => ⟨S1000000x1, .i32⟩
  | .hbm, ⟨38, _⟩ => ⟨S1000000x1, .i1⟩
  | .hbm, ⟨39, _⟩ => ⟨S1000000x1, .i1⟩
  | .hbm, ⟨40, _⟩ => ⟨S_, .i1⟩
  | .hbm, ⟨41, _⟩ => ⟨S1000000, .i1⟩
  | .hbm, ⟨42, _⟩ => ⟨S1000000x5, .f32⟩
  | .hbm, ⟨43, _⟩ => ⟨S1000000x5, .i1⟩
  | .hbm, ⟨44, _⟩ => ⟨S_, .f32⟩
  | .hbm, ⟨45, _⟩ => ⟨S1000000x5, .f32⟩
  | .hbm, ⟨46, _⟩ => ⟨S1000000x5, .f32⟩
  | .hbm, ⟨47, _⟩ => ⟨S1000000x4, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1, .i32⟩
  | .hbm, ⟨57, _⟩ => ⟨S_, .i32⟩
  | .hbm, ⟨58, _⟩ => ⟨S1000000x1, .i32⟩
  | .hbm, ⟨59, _⟩ => ⟨S1000000x1, .i1⟩
  | .hbm, ⟨60, _⟩ => ⟨S1x1, .i32⟩
  | .hbm, ⟨61, _⟩ => ⟨S1000000x1, .i32⟩
  | .hbm, ⟨62, _⟩ => ⟨S1000000x1, .i1⟩
  | .hbm, ⟨63, _⟩ => ⟨S1000000x1, .i1⟩
  | .hbm, ⟨64, _⟩ => ⟨S_, .i1⟩
  | .hbm, ⟨65, _⟩ => ⟨S1000000, .i1⟩
  | .hbm, ⟨66, _⟩ => ⟨S1000000x5, .f32⟩
  | .hbm, ⟨67, _⟩ => ⟨S1000000x5, .i1⟩
  | .hbm, ⟨68, _⟩ => ⟨S_, .f32⟩
  | .hbm, ⟨69, _⟩ => ⟨S1000000x5, .f32⟩
  | .hbm, ⟨70, _⟩ => ⟨S1000000x5, .f32⟩
  | .hbm, ⟨71, _⟩ => ⟨S1000000x4, .f32⟩
  | .hbm, ⟨72, _⟩ => ⟨S1000000x4, .f32⟩
  | .hbm, ⟨73, _⟩ => ⟨S_, .f32⟩
  | .hbm, ⟨74, _⟩ => ⟨S1000000, .f32⟩
  | .local _ .vmem, ⟨0, _⟩ => ⟨S120x12000, .f32⟩
  | .local _ .vmem, ⟨1, _⟩ => ⟨S120x12000, .f32⟩
  | .local _ .vmem, ⟨2, _⟩ => ⟨S120x5, .f32⟩
  | .local _ .vmem, ⟨3, _⟩ => ⟨S120x5, .f32⟩
  | .local _ .vmem, ⟨4, _⟩ => ⟨S5x12000, .f32⟩
  | .local _ .vmem, ⟨5, _⟩ => ⟨S8x128, .f32⟩
  | .local _ .vmem, ⟨6, _⟩ => ⟨S8x128, .f32⟩
  | _, _ => ⟨S12000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v15 : Ref sig .tc := ⟨.hbm, 46, rfl⟩
abbrev main_v16 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_3 : Ref sig .tc := ⟨.hbm, 73, rfl⟩
abbrev main_v20 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S120x12000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S120x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5x12000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S12000x5_S5x12000_1_0 : S12000x5.Transposes [1, 0] S5x12000
  inb_S8x128_S8x128_0_0 : ∀ a, (![0, 0] : Fin 2 → Nat) a + S8x128.size a ≤ S8x128.size a
  h_S8x128 : 0 < S8x128.numel
  inb_S120x5_S120x5_0_0 : ∀ a, (![0, 0] : Fin 2 → Nat) a + S120x5.size a ≤ S120x5.size a
  h_S120x5 : 0 < S120x5.numel
  bitsLt_bf16_f32 : FTy.bits .bf16 < FTy.bits .f32
  inb_S5x12000_S5x12000_0_0 : ∀ a, (![0, 0] : Fin 2 → Nat) a + S5x12000.size a ≤ S5x12000.size a
  h_S5x12000 : 0 < S5x12000.numel
  shapeCasts_S5x12000_S5x12000 : S5x12000.ShapeCasts S5x12000
  inb_S120x12000_S120x12000_0_0 : ∀ a, (![0, 0] : Fin 2 → Nat) a + S120x12000.size a ≤ S120x12000.size a
  h_S120x12000 : 0 < S120x12000.numel
  natLt_1_32 : 1 < 32
  reduces_S120x12000_S120 : S120x12000.Reduces [1] S120
  shapeCasts_S120_S120x1 : S120.ShapeCasts S120x1
  reduces_S120x1_S1 : S120x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  reducesTo_S12000x5_S_d0_1 : S12000x5.ReducesTo [0, 1] S_
  h_S_ : 0 < S_.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x5_0 : S1000000.BroadcastsInDim S1000000x5 (![0] : Fin 1 → Fin S1000000x5.rank)
  bcast_S_S1000000x5 : S_.BroadcastsInDim S1000000x5 (![] : Fin 0 → Fin S1000000x5.rank)
  slices_S1000000x5_S1000000x4_0_0 : S1000000x5.Slices ![0, 0] S1000000x4
  reducesTo_S1000000x4_S1000000_d1 : S1000000x4.ReducesTo [1] S1000000
  dot_S120x5_S5x12000_S120x12000_1_0_0_1_n_n_wf : DotDims.WF S120x5 S5x12000 S120x12000 [1] [0] [0] [1] [] []
  gather_S12000x5_S1000000x1_S1000000x5_1_0_n_n_0_1_15_wf : GatherDims.WF S12000x5 S1000000x1 S1000000x5 [1] [0] [] [0] [] 1 ![1, 5]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S120x12000.size a ≤ S12000x12000.size a
  hwx0_0 : ∀ i : grid0.Coords, EltTy.bits .f32 = 32 ∨ (Rect.block (s := S12000x12000) S120x12000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S120x5.size a ≤ S12000x5.size a
  hwx0_1 : ∀ i : grid0.Coords, EltTy.bits .f32 = 32 ∨ (Rect.block (s := S12000x5) S120x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x12000.size a ≤ S5x12000.size a
  hwx0_2 : ∀ i : grid0.Coords, EltTy.bits .f32 = 32 ∨ (Rect.block (s := S5x12000) S5x12000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S120x5_S5x12000_S120x12000_1_0_0_1_n_n : DotDims S120x5 S5x12000 S120x12000 where
  lhsContracting := [1]
  rhsContracting := [0]
  lhsNonContracting := [0]
  rhsNonContracting := [1]
  lhsBatch := []
  rhsBatch := []
  wf := dot_S120x5_S5x12000_S120x12000_1_0_0_1_n_n_wf
def gather_S12000x5_S1000000x1_S1000000x5_1_0_n_n_0_1_15 : GatherDims S12000x5 S1000000x1 S1000000x5 where
  offsetDims := [1]
  collapsedSliceDims := [0]
  operandBatchingDims := []
  startIndicesBatchingDims := []
  startIndexMap := [0]
  indexVectorDim := 1
  sliceSizes := ![1, 5]
  wf := gather_S12000x5_S1000000x1_S1000000x5_1_0_n_n_0_1_15_wf

abbrev win0_0 : Pipeline.Window sig grid0 :=
  Pipeline.Window.ofSpec (Memref.whole main_arg2) S120x12000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S120x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5x12000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S12000x5 : Shape := ⟨2, ![12000, 5]⟩
abbrev S12000x12000 : Shape := ⟨2, ![12000, 12000]⟩
abbrev S1000000 : Shape := ⟨1, ![1000000]⟩
abbrev S_ : Shape := ⟨0, ![]⟩
abbrev S5x12000 : Shape := ⟨2, ![5, 12000]⟩
abbrev S1000000x1 : Shape := ⟨2, ![1000000, 1]⟩
abbrev S1000000x2 : Shape := ⟨2, ![1000000, 2]⟩
abbrev S1000000x4 : Shape := ⟨2, ![1000000, 4]⟩

abbrev nBuf : Space → Nat
  | .hbm => 55
  | .vmem => 0
  | .smem => 0
  | _ => 0

abbrev bufTy : (tb : Table) → Fin (tcTables nBuf tb) → BufTy
  | .hbm, ⟨0, _⟩ => ⟨S12000x5, .f32⟩
  | .hbm, ⟨1, _⟩ => ⟨S12000x5, .f32⟩
  | .hbm, ⟨2, _⟩ => ⟨S12000x12000, .f32⟩
  | .hbm, ⟨3, _⟩ => ⟨S1000000, .i32⟩
  | .hbm, ⟨4, _⟩ => ⟨S1000000, .i32⟩
  | .hbm, ⟨5, _⟩ => ⟨S_, .f32⟩
  | .hbm, ⟨6, _⟩ => ⟨S12000x12000, .f32⟩
  | .hbm, ⟨7, _⟩ => ⟨S12000x12000, .i1⟩
  | .hbm, ⟨8, _⟩ => ⟨S12000x12000, .f32⟩
  | .hbm, ⟨9, _⟩ => ⟨S5x12000, .f32⟩
  | .hbm, ⟨10, _⟩ => ⟨S12000x12000, .f32⟩
  | .hbm, ⟨11, _⟩ => ⟨S12000x12000, .f32⟩
  | .hbm, ⟨12, _⟩ => ⟨S12000x12000, .f32⟩
  | .hbm, ⟨13, _⟩ => ⟨S12000x12000, .f32⟩
  | .hbm, ⟨14, _⟩ => ⟨S_, .f32⟩
  | .hbm, ⟨15, _⟩ => ⟨S_, .f32⟩
  | .hbm, ⟨16, _⟩ => ⟨S12000x5, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S12000x5, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S_, .i32⟩
  | .hbm, ⟨37, _⟩ => ⟨S1000000x1, .i32⟩
  | .hbm, ⟨38, _⟩ => ⟨S1000000x2, .i32⟩
  | .hbm, ⟨39, _⟩ => ⟨S1000000x4, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S_, .i32⟩
  | .hbm, ⟨49, _⟩ => ⟨S1000000x1, .i32⟩
  | .hbm, ⟨50, _⟩ => ⟨S1000000x2, .i32⟩
  | .hbm, ⟨51, _⟩ => ⟨S1000000x4, .f32⟩
  | .hbm, ⟨52, _⟩ => ⟨S1000000x4, .f32⟩
  | .hbm, ⟨53, _⟩ => ⟨S_, .f32⟩
  | .hbm, ⟨54, _⟩ => ⟨S1000000, .f32⟩
  | _, _ => ⟨S12000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S_S12000x12000 : S_.BroadcastsInDim S12000x12000 (![] : Fin 0 → Fin S12000x12000.rank)
  transposes_S12000x5_S5x12000_1_0 : S12000x5.Transposes [1, 0] S5x12000
  reducesTo_S12000x12000_S_d0_1 : S12000x12000.ReducesTo [0, 1] S_
  h_S_ : 0 < S_.numel
  reducesTo_S12000x5_S_d0_1 : S12000x5.ReducesTo [0, 1] S_
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  concatenates_S1000000x1_S1000000x1_S1000000x2_d1 : Shape.Concatenates [S1000000x1, S1000000x1] S1000000x2 1
  reducesTo_S1000000x4_S1000000_d1 : S1000000x4.ReducesTo [1] S1000000
  dot_S12000x5_S5x12000_S12000x12000_1_0_0_1_n_n_wf : DotDims.WF S12000x5 S5x12000 S12000x12000 [1] [0] [0] [1] [] []
  gather_S12000x5_S1000000x2_S1000000x4_1_0_n_n_01_1_14_wf : GatherDims.WF S12000x5 S1000000x2 S1000000x4 [1] [0] [] [0, 1] [] 1 ![1, 4]

variable [Facts₀]

def dot_S12000x5_S5x12000_S12000x12000_1_0_0_1_n_n : DotDims S12000x5 S5x12000 S12000x12000 where
  lhsContracting := [1]
  rhsContracting := [0]
  lhsNonContracting := [0]
  rhsNonContracting := [1]
  lhsBatch := []
  rhsBatch := []
  wf := dot_S12000x5_S5x12000_S12000x12000_1_0_0_1_n_n_wf
def gather_S12000x5_S1000000x2_S1000000x4_1_0_n_n_01_1_14 : GatherDims S12000x5 S1000000x2 S1000000x4 where
  offsetDims := [1]
  collapsedSliceDims := [0]
  operandBatchingDims := []
  startIndicesBatchingDims := []
  startIndexMap := [0, 1]
  indexVectorDim := 1
  sliceSizes := ![1, 4]
  wf := gather_S12000x5_S1000000x2_S1000000x4_1_0_n_n_01_1_14_wf

class Facts : Prop extends Facts₀ where

variable [Facts]
-- ==== Proof.K.Kit.lean ====
/- The loss kernel's launch, seen from @main: one transpose before the region, the region over a grid of
   2 × 50 points (core, tile), and 68 host operations after it. This module fixes what the region finds (the
   arguments as launched, the second table transposed), shows that the later operations touch none of the
   region's arrays and leave the five arguments alone, names each window's block at a point, and decides at which
   points the body clears its accumulator (the first of each core's fifty). -/
import proofs.«419446_j32796370272277_3_alg».proof.Proof.Gen.Kernel.Launch
import proofs.«419446_j32796370272277_3_alg».proof.Proof.Gen.Kernel.Skeleton
import proofs.«419446_j32796370272277_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 120 × 12000 entries is checked structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the one transpose. -/
abbrev entry (c : Dev nD) : Valuation τ sig (Elt F) := StableHlo.after (List.flatten [hostOps0]) (fun b => m (c, b))
/-- The same, read at one buffer. -/
abbrev atEntry (c : Dev nD) (b : Ref sig .tc) : Buf (Elt F) ((c : Thread nD τ).loc b) := entry m c (Proc.devRef .tc b)

/-- The five stretches of host operations after the region, in order. -/
abbrev tail : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the transpose, the region, then the later operations: it reduces to the region continued by them. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] tail (by simp only [List.Forall]; exact hostOps0_sub)
    (by simp only [List.Forall]; exact hostOps0_fresh) main_chain

/-- The later operations touch only unscoped buffers of the core. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each operation of a stretch writes its own result buffer only, and none of those is one of the region's four
    arrays (the ratings, the first table, the transposed second table, the kernel's result). -/
theorem keeps_of_forall {ops : List (HloOp τ sig (Elt F))}
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall]
  intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- So the later operations write none of the region's arrays. -/
theorem tail_keeps : ∀ ops ∈ (tail : List (List (HloOp τ sig (Elt F)))), ∀ op ∈ ops,
    ∀ w, Proc.devRef .tc (Pipeline.arrRef spec0 w) ∉ op.writes := by
  intro ops hops
  simp only [tail, List.mem_cons, List.mem_nil_iff, or_false] at hops
  rcases hops with rfl | rfl | rfl | rfl | rfl
  · exact keeps_of_forall hostOps1_keeps
  · exact keeps_of_forall hostOps1_1_keeps
  · exact keeps_of_forall hostOps1_2_keeps
  · exact keeps_of_forall hostOps1_3_keeps
  · exact keeps_of_forall hostOps1_4_keeps

/-! ## The arguments, through the transpose and through the later operations -/

/-- The transpose writes only its own result: the region finds the first table and the ratings as launched. -/
theorem entry_main_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry_main_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before or after the region writes `main_arg1`: it ends as launched. -/
theorem entry_main_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem end_main_arg1 (dats : (p : Fin _) → (c : Dev nD) → Dat τ (Elt F) Unit ℕ (UR sig nD τ) ℕ (cfgs p) c) (c : Dev nD) :
    Pipeline.afterTail₀ cfgs dats 0 (entry m) tail c main_arg1 = m ((c : Thread nD τ).loc main_arg1) := by
  unfold Pipeline.afterTail₀
  rw [StableHlo.after_of_forall_not_mem (b := Proc.devRef .tc main_arg1) _ _ (List.forall_iff_forall_mem.mp (by
    simp only [tail, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (entry m c) _ main_arg1 (by exact (by decide : ∀ w, Pipeline.arrRef spec0 w ≠ main_arg1))]
  exact entry_main_arg1 m c

/-- No operation before or after the region writes `main_arg3`: it ends as launched. -/
theorem entry_main_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem end_main_arg3 (dats : (p : Fin _) → (c : Dev nD) → Dat τ (Elt F) Unit ℕ (UR sig nD τ) ℕ (cfgs p) c) (c : Dev nD) :
    Pipeline.afterTail₀ cfgs dats 0 (entry m) tail c main_arg3 = m ((c : Thread nD τ).loc main_arg3) := by
  unfold Pipeline.afterTail₀
  rw [StableHlo.after_of_forall_not_mem (b := Proc.devRef .tc main_arg3) _ _ (List.forall_iff_forall_mem.mp (by
    simp only [tail, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (entry m c) _ main_arg3 (by exact (by decide : ∀ w, Pipeline.arrRef spec0 w ≠ main_arg3))]
  exact entry_main_arg3 m c

/-- No operation before or after the region writes `main_arg4`: it ends as launched. -/
theorem entry_main_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem end_main_arg4 (dats : (p : Fin _) → (c : Dev nD) → Dat τ (Elt F) Unit ℕ (UR sig nD τ) ℕ (cfgs p) c) (c : Dev nD) :
    Pipeline.afterTail₀ cfgs dats 0 (entry m) tail c main_arg4 = m ((c : Thread nD τ).loc main_arg4) := by
  unfold Pipeline.afterTail₀
  rw [StableHlo.after_of_forall_not_mem (b := Proc.devRef .tc main_arg4) _ _ (List.forall_iff_forall_mem.mp (by
    simp only [tail, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (entry m c) _ main_arg4 (by exact (by decide : ∀ w, Pipeline.arrRef spec0 w ≠ main_arg4))]
  exact entry_main_arg4 m c

/-! ## The windows' blocks -/

/-- Window `w`'s block at point `t`, read off its array as the region finds it: for the ratings and the first
    table the 120 rows of tile `t`, for the transposed second table the whole array. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, whether the pipeline fetched it
    there or not (an unfetched block has not moved: the transposed table is fetched once and stays), for any proof
    data whose array is the entry contents and whose body leaves the block in place. One statement per input
    window: the ratings, the first table, the transposed second table. -/
theorem before_R_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_U_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_VT_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the launch -/

/-- From a run that ends with every array of the region at what the proof data say and every other buffer as the
    later operations leave it, the five arguments end as launched: the ratings and the first table are input
    arrays of the region, the other three are touched by nothing. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (entry m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 1).trans (((dats 0 c).arrAt_in 1 rfl _).trans ((hA c 1).trans (entry_main_arg0 m c))),
     ((h c).2 main_arg1 (Pipeline.mem_restRefs_of main_arg1 (by decide) (by decide))).trans (end_main_arg1 m dats c),
     ((h c).1 0).trans (((dats 0 c).arrAt_in 0 rfl _).trans ((hA c 0).trans (entry_main_arg2 m c))),
     ((h c).2 main_arg3 (Pipeline.mem_restRefs_of main_arg3 (by decide) (by decide))).trans (end_main_arg3 m dats c),
     ((h c).2 main_arg4 (Pipeline.mem_restRefs_of main_arg4 (by decide) (by decide))).trans (end_main_arg4 m dats c)⟩) h

/-! ## When the body clears its accumulator -/

/-- The body's one branch: taken when the point's second coordinate (the tile within the core's share) is 0. -/
abbrev clears (i : grid0.Coords) : Prop := (Scalar.cmpi .ne (Scalar.extui (Scalar.cmpi .eq (BitVec.ofNat 32 (i 1).val) 0#32)) 0#32) = 1#1
/-- Over the grid, row-major: at points 0 and 50, the first point of each core. -/
theorem clears_iff : ∀ t : Fin cfg0.N, clears (grid0.coords t) ↔ t.val % 50 = 0 :=
  (by decide +kernel : ∀ t : Fin grid0.N, clears (grid0.coords t) ↔ t.val % 50 = 0)

/-! ## The staging memrefs the body is called with -/

/-- One staging buffer of the result window, through which its contents are stated (which one does not matter). -/
abbrev resView : View sig .tc .vmem S8x128 .f32 := (Memref.whole cc0_stg3_0 : Memref sig .tc .vmem S8x128 .f32).view
/-- Each window's current staging memref at point `t`, spelled as the pipeline passes it, and its wholeness. -/
abbrev stR (t : Fin cfg0.N) : Memref sig .tc .vmem S120x12000 .f32 := win0_0.stage (cfg0.slots t 0)
abbrev hstR (t : Fin cfg0.N) : (stR t).IsWhole := hstage0_0 ((cfg0.slots t 0).cast nbuf0_0)
abbrev stU (t : Fin cfg0.N) : Memref sig .tc .vmem S120x5 .f32 := win0_1.stage (cfg0.slots t 1)
abbrev hstU (t : Fin cfg0.N) : (stU t).IsWhole := hstage0_1 ((cfg0.slots t 1).cast nbuf0_1)
abbrev stVT (t : Fin cfg0.N) : Memref sig .tc .vmem S5x12000 .f32 := win0_2.stage (cfg0.slots t 2)
abbrev hstVT (t : Fin cfg0.N) : (stVT t).IsWhole := hstage0_2 ((cfg0.slots t 2).cast nbuf0_2)
abbrev stO (t : Fin cfg0.N) : Memref sig .tc .vmem S8x128 .f32 := win0_3.stage (cfg0.slots t 3)
abbrev hstO (t : Fin cfg0.N) : (stO t).IsWhole := hstage0_3 ((cfg0.slots t 3).cast nbuf0_3)

end Cert.Kernel.Hand

end
-- ==== Proof.K.RunA.lean ====
/- The body at a point where it clears: on whole staging buffers holding the tile's ratings, the tile's rows of
   the first table and the transposed second table, with the result buffer at anything, the body runs to its end
   holding the three inputs as they were and the result buffer with two stores written: the zeros, then the
   accumulated block. The stores are found by running the body; they are the witness. -/
import proofs.«419446_j32796370272277_3_alg».proof.Proof.K.Kit

-- membership in a rectangle of 120 × 12000 entries is checked structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the result buffer (last first) at a clearing point, with the proof that the body
    runs to its continuation holding the inputs unchanged and the result buffer with those stores written. -/
noncomputable def runClear (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : clears i)
    (xR : Vec F S120x12000 .f32) (xU : Vec F S120x5 .f32) (xVT : Vec F S5x12000 .f32) :
    { L : List (View.Piece (Elt F) S8x128 .f32) //
      ∀ (E : Set ℕ) (K : PUnit → sProp 𝕄),
        iprop(owns (c : Thread nD τ) arg2 fullShare xR ∗ owns (c : Thread nD τ) arg3 fullShare xU ∗ owns (c : Thread nD τ) arg4 fullShare xVT
            ∗ (∃ d, owns (c : Thread nD τ) arg5 fullShare d)
            ∗ (iprop(owns (c : Thread nD τ) arg2 fullShare xR ∗ owns (c : Thread nD τ) arg3 fullShare xU ∗ owns (c : Thread nD τ) arg4 fullShare xVT
                ∗ (∃ f, arg5.view.loc (c : Thread nD τ) ↦[arg5.view.set]{fullShare} arg5.view.writes (Elt F) f L)) -∗ K ⟨⟩))
          ⊢ wp frame (wpE (defs₀ (F := F)) Variants.none c none) E (cc0__loss_kernel i arg2 harg2 arg3 harg3 arg4 harg4 arg5 harg5) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.RunB.lean ====
/- The body at a point where it does not clear: the result buffer holds the running block `xO` the point before
   left, and the body runs to its end holding the three inputs as they were and the result buffer with one store
   written, the accumulated block. -/
import proofs.«419446_j32796370272277_3_alg».proof.Proof.K.RunA

-- membership in a rectangle of 120 × 12000 entries is checked structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the result buffer at a point that does not clear, with the proof that the body
    runs to its continuation holding the inputs unchanged and the result buffer with those stores written. -/
noncomputable def runAdd (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : ¬clears i)
    (xR : Vec F S120x12000 .f32) (xU : Vec F S120x5 .f32) (xVT : Vec F S5x12000 .f32) (xO : Vec F S8x128 .f32) :
    { L : List (View.Piece (Elt F) S8x128 .f32) //
      ∀ (E : Set ℕ) (K : PUnit → sProp 𝕄),
        iprop(owns (c : Thread nD τ) arg2 fullShare xR ∗ owns (c : Thread nD τ) arg3 fullShare xU ∗ owns (c : Thread nD τ) arg4 fullShare xVT
            ∗ owns (c : Thread nD τ) arg5 fullShare xO
            ∗ (iprop(owns (c : Thread nD τ) arg2 fullShare xR ∗ owns (c : Thread nD τ) arg3 fullShare xU ∗ owns (c : Thread nD τ) arg4 fullShare xVT
                ∗ (∃ f, arg5.view.loc (c : Thread nD τ) ↦[arg5.view.set]{fullShare} arg5.view.writes (Elt F) f L)) -∗ K ⟨⟩))
          ⊢ wp frame (wpE (defs₀ (F := F)) Variants.none c none) E (cc0__loss_kernel i arg2 harg2 arg3 harg3 arg4 harg4 arg5 harg5) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.Frame.lean ====
/- The launch of the loss kernel, whole. What the result window's staging buffer holds after each grid point is
   a running block: at a clearing point (the first of each core's fifty) the zeros overwritten by the first tile's
   block, at every other point the block the point before left overwritten by this point's; the buffer is written
   back to rows 8·core … 8·core + 7 of the result array after each core's last point. With that as proof data the
   body meets its obligation at every point, the launch theorem for a region followed by host operations applies,
   and the five arguments end as launched. -/
import proofs.«419446_j32796370272277_3_alg».proof.Proof.K.RunB

-- membership in a rectangle of 120 × 12000 entries is checked structurally, one step per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a clearing point the body's two stores tile the result block, so they cover it. -/
theorem coverClear (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : clears i)
    (xR : Vec F S120x12000 .f32) (xU : Vec F S120x5 .f32) (xVT : Vec F S5x12000 .f32) (y : S8x128.Idx) :
    ∃ pc ∈ (runClear c i arg2 harg2 arg3 harg3 arg4 harg4 arg5 harg5 hc xR xU xVT).1, y ∈ pc.1.set :=
  View.cover_of_tiledL (runClear c i arg2 harg2 arg3 harg3 arg4 harg4 arg5 harg5 hc xR xU xVT).1 S8x128.size (by sl_kernel_rfl) y

/-- What a clearing point leaves in the result buffer: its stores read back. -/
def outClear (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : clears i)
    (xR : Vec F S120x12000 .f32) (xU : Vec F S120x5 .f32) (xVT : Vec F S5x12000 .f32) : Vec F S8x128 .f32 :=
  resView.read (Elt F) (resView.writes (Elt F) resView.junk (runClear c i arg2 harg2 arg3 harg3 arg4 harg4 arg5 harg5 hc xR xU xVT).1)

/-- At any other point the body's one store covers the result block. -/
theorem coverAdd (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : ¬clears i)
    (xR : Vec F S120x12000 .f32) (xU : Vec F S120x5 .f32) (xVT : Vec F S5x12000 .f32) (xO : Vec F S8x128 .f32) (y : S8x128.Idx) :
    ∃ pc ∈ (runAdd c i arg2 harg2 arg3 harg3 arg4 harg4 arg5 harg5 hc xR xU xVT xO).1, y ∈ pc.1.set :=
  View.cover_of_tiledL (runAdd c i arg2 harg2 arg3 harg3 arg4 harg4 arg5 harg5 hc xR xU xVT xO).1 S8x128.size (by sl_kernel_rfl) y

/-- What such a point leaves in the result buffer, over the running block `xO` it found there. -/
def outAdd (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : ¬clears i)
    (xR : Vec F S120x12000 .f32) (xU : Vec F S120x5 .f32) (xVT : Vec F S5x12000 .f32) (xO : Vec F S8x128 .f32) : Vec F S8x128 .f32 :=
  resView.read (Elt F) (resView.writes (Elt F) resView.junk (runAdd c i arg2 harg2 arg3 harg3 arg4 harg4 arg5 harg5 hc xR xU xVT xO).1)

/-! ## The running block, point by point -/

/-- What the result window's staging buffer holds after the body at position `n` of the grid: a clearing point's
    block from the point's input blocks alone, any other point's over what position `n − 1` left (the buffer is
    not written back in between). -/
def accAt (c : Dev nD) : (n : ℕ) → n < cfg0.N → Vec F S8x128 .f32
  | 0, hn => outClear c (grid0.coords ⟨0, hn⟩) (stR ⟨0, hn⟩) (hstR ⟨0, hn⟩) (stU ⟨0, hn⟩) (hstU ⟨0, hn⟩) (stVT ⟨0, hn⟩) (hstVT ⟨0, hn⟩) (stO ⟨0, hn⟩) (hstO ⟨0, hn⟩) ((clears_iff ⟨0, hn⟩).mpr (Nat.zero_mod _)) (blockAt m c 0 ⟨0, hn⟩) (blockAt m c 1 ⟨0, hn⟩) (blockAt m c 2 ⟨0, hn⟩)
  | n + 1, hn =>
    if h0 : (n + 1) % 50 = 0 then
      outClear c (grid0.coords ⟨n + 1, hn⟩) (stR ⟨n + 1, hn⟩) (hstR ⟨n + 1, hn⟩) (stU ⟨n + 1, hn⟩) (hstU ⟨n + 1, hn⟩) (stVT ⟨n + 1, hn⟩) (hstVT ⟨n + 1, hn⟩) (stO ⟨n + 1, hn⟩) (hstO ⟨n + 1, hn⟩) ((clears_iff ⟨n + 1, hn⟩).mpr h0) (blockAt m c 0 ⟨n + 1, hn⟩) (blockAt m c 1 ⟨n + 1, hn⟩) (blockAt m c 2 ⟨n + 1, hn⟩)
    else
      outAdd c (grid0.coords ⟨n + 1, hn⟩) (stR ⟨n + 1, hn⟩) (hstR ⟨n + 1, hn⟩) (stU ⟨n + 1, hn⟩) (hstU ⟨n + 1, hn⟩) (stVT ⟨n + 1, hn⟩) (hstVT ⟨n + 1, hn⟩) (stO ⟨n + 1, hn⟩) (hstO ⟨n + 1, hn⟩) (fun h => h0 ((clears_iff ⟨n + 1, hn⟩).mp h)) (blockAt m c 0 ⟨n + 1, hn⟩) (blockAt m c 1 ⟨n + 1, hn⟩) (blockAt m c 2 ⟨n + 1, hn⟩) (accAt c n (Nat.lt_of_succ_lt hn))

/-- At a clearing point. -/
theorem accAt_clear (c : Dev nD) (t : Fin cfg0.N) (h0 : t.val % 50 = 0) :
    accAt m c t.val t.isLt = outClear c (grid0.coords t) (stR t) (hstR t) (stU t) (hstU t) (stVT t) (hstVT t) (stO t) (hstO t) ((clears_iff t).mpr h0) (blockAt m c 0 t) (blockAt m c 1 t) (blockAt m c 2 t) := by
  obtain ⟨n, hn⟩ := t
  cases n with
  | zero => exact rfl
  | succ n => exact (dif_pos h0).trans rfl

/-- At any other point: over what the point before left. -/
theorem accAt_add (c : Dev nD) (t : Fin cfg0.N) (h0 : ¬t.val % 50 = 0) :
    accAt m c t.val t.isLt = outAdd c (grid0.coords t) (stR t) (hstR t) (stU t) (hstU t) (stVT t) (hstVT t) (stO t) (hstO t) (fun h => h0 ((clears_iff t).mp h)) (blockAt m c 0 t) (blockAt m c 1 t) (blockAt m c 2 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of the launch on core `c`: the arrays as the region finds them; after the body at point `t`
    each input's buffer at its block and the result's at the running block; the invariant the scoped rest and
    the generator register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => accAt m c t.val t.isLt
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_R (c : Dev nD) (t : Fin cfg0.N) : (dats m 0 c).after 0 t = blockAt m c 0 t := by dsimp only [dats]
theorem after_U (c : Dev nD) (t : Fin cfg0.N) : (dats m 0 c).after 1 t = blockAt m c 1 t := by dsimp only [dats]
theorem after_VT (c : Dev nD) (t : Fin cfg0.N) : (dats m 0 c).after 2 t = blockAt m c 2 t := by dsimp only [dats]
theorem after_O (c : Dev nD) (t : Fin cfg0.N) : (dats m 0 c).after 3 t = accAt m c t.val t.isLt := by dsimp only [dats]

/-- Each input's current staging buffer holds its block at every point. -/
theorem before_R (c : Dev nD) (t : Fin cfg0.N) (d) : (dats m 0 c).before 0 t d = blockAt m c 0 t :=
  before_R_of m (dats m 0 c) (A_eq m c 0) (after_R m c) t d
theorem before_U (c : Dev nD) (t : Fin cfg0.N) (d) : (dats m 0 c).before 1 t d = blockAt m c 1 t :=
  before_U_of m (dats m 0 c) (A_eq m c 1) (after_U m c) t d
theorem before_VT (c : Dev nD) (t : Fin cfg0.N) (d) : (dats m 0 c).before 2 t d = blockAt m c 2 t :=
  before_VT_of m (dats m 0 c) (A_eq m c 2) (after_VT m c) t d

/-- At a point that does not clear, the result's current staging buffer holds what the body left at the point
    before: the point is not the first, and the buffer is written back only after points 49 and 99, each followed
    by a clearing point or by nothing. -/
theorem before_O_add (c : Dev nD) (t : Fin cfg0.N) (h0 : ¬t.val % 50 = 0) (d) :
    (dats m 0 c).before 3 t d = accAt m c (t.val - 1) (Nat.lt_of_le_of_lt (Nat.sub_le _ _) t.isLt) := by
  have hN : t.val < 100 := lt_of_lt_of_eq t.isLt (show cfg0.N = 100 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stR t) fullShare ((dats m 0 c).before 0 t d))
    ∗ (∃ d, owns (c : Thread nD τ) (stU t) fullShare ((dats m 0 c).before 1 t d))
    ∗ (∃ d, owns (c : Thread nD τ) (stVT t) fullShare ((dats m 0 c).before 2 t d))
    ∗ (∃ d, owns (c : Thread nD τ) (stO t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (stR t) fullShare ((dats m 0 c).after 0 t)
    ∗ owns (c : Thread nD τ) (stU t) fullShare ((dats m 0 c).after 1 t)
    ∗ owns (c : Thread nD τ) (stVT t) fullShare ((dats m 0 c).after 2 t)
    ∗ owns (c : Thread nD τ) (stO t) fullShare ((dats m 0 c).after 3 t))

set_option maxHeartbeats 1600000 in
/-- The body at any point: the inputs' buffers hold their blocks; the point either clears (then the result buffer
    may hold anything) or finds in the result buffer what the point before left; either way the matching run
    applies, and what it leaves is the running block; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_R, before_U, before_VT]
  rw [show (dats m 0 c).Φ t.succ = (dats m 0 c).Φ t.castSucc from rfl,
    show (dats m 0 c).owesAt () t.succ = (dats m 0 c).owesAt () t.castSucc from rfl,
    after_R, after_U, after_VT, after_O]
  have hN : t.val < 100 := lt_of_lt_of_eq t.isLt (show cfg0.N = 100 from N_0)
  by_cases h0 : t.val % 50 = 0
  · rw [accAt_clear m c t h0]
    unfold outClear
    iintro ⟨HΦ, Ho, ⟨%d0, H0⟩, ⟨%d1, H1⟩, ⟨%d2, H2⟩, ⟨%d3, H3⟩⟩
    iapply ((runClear c (grid0.coords t) _ _ _ _ _ _ _ _ ((clears_iff t).mpr h0) (blockAt m c 0 t) (blockAt m c 1 t) (blockAt m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverClear c _ _ _ _ _ _ _ _ _ _ _ _ _)
  · rw [accAt_add m c t h0]
    simp only [before_O_add m c t h0]
    unfold outAdd
    iintro ⟨HΦ, Ho, ⟨%d0, H0⟩, ⟨%d1, H1⟩, ⟨%d2, H2⟩, ⟨%d3, H3⟩⟩
    iapply ((runAdd c (grid0.coords t) _ _ _ _ _ _ _ _ (fun h => h0 ((clears_iff t).mp h)) (blockAt m c 0 t) (blockAt m c 1 t) (blockAt m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverAdd c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 3200000 in
set_option backward.isDefEq.respectTransparency.types false in
/-- From any memory with zero counters every weakly fair execution of @main terminates, and every final state has
    each array of the region at what the proof data say and every other unscoped buffer as the later operations
    leave it. -/
theorem run_main : θ_run defs (onTc (τ := τ) (main (F := F))) (s₀ m ρ) (Pipeline.FramePost cfgs (dats m) 0 (Pipeline.afterTail₀ cfgs (dats m) 0 (entry m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := tail) (hsub := tail_sub) (hfresh := tail_fresh) (hkeep := tail_keeps)
    (hmain := main_around m Variants.none) (hA := A_eq m) (hΦ := fun _ _ => rfl)

/-- The frame: the program runs to its end without a fault and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_run m ρ (dats m) (A_eq m) (run_main m ρ)

end Cert.Kernel.Hand

end
-- ==== Proof.KI.Kit.lean ====
/- The loss kernel's launch, seen from @main: one transpose before the region, the region over a grid of
   2 × 50 points (core, tile), and 68 host operations after it. This module fixes what the region finds (the
   arguments as launched, the second table transposed), shows that the later operations touch none of the
   region's arrays and leave the five arguments alone, names each window's block at a point, and decides at which
   points the body clears its accumulator (the first of each core's fifty). -/
import proofs.«419446_j32796370272277_3_alg».proof.Proof.Gen.KernelIdeal.Launch
import proofs.«419446_j32796370272277_3_alg».proof.Proof.Gen.KernelIdeal.Skeleton
import proofs.«419446_j32796370272277_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 120 × 12000 entries is checked structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the one transpose. -/
abbrev entry (c : Dev nD) : Valuation τ sig (Elt F) := StableHlo.after (List.flatten [hostOps0]) (fun b => m (c, b))
/-- The same, read at one buffer. -/
abbrev atEntry (c : Dev nD) (b : Ref sig .tc) : Buf (Elt F) ((c : Thread nD τ).loc b) := entry m c (Proc.devRef .tc b)

/-- The five stretches of host operations after the region, in order. -/
abbrev tail : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the transpose, the region, then the later operations: it reduces to the region continued by them. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] tail (by simp only [List.Forall]; exact hostOps0_sub)
    (by simp only [List.Forall]; exact hostOps0_fresh) main_chain

/-- The later operations touch only unscoped buffers of the core. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each operation of a stretch writes its own result buffer only, and none of those is one of the region's four
    arrays (the ratings, the first table, the transposed second table, the kernel's result). -/
theorem keeps_of_forall {ops : List (HloOp τ sig (Elt F))}
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall]
  intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- So the later operations write none of the region's arrays. -/
theorem tail_keeps : ∀ ops ∈ (tail : List (List (HloOp τ sig (Elt F)))), ∀ op ∈ ops,
    ∀ w, Proc.devRef .tc (Pipeline.arrRef spec0 w) ∉ op.writes := by
  intro ops hops
  simp only [tail, List.mem_cons, List.mem_nil_iff, or_false] at hops
  rcases hops with rfl | rfl | rfl | rfl | rfl
  · exact keeps_of_forall hostOps1_keeps
  · exact keeps_of_forall hostOps1_1_keeps
  · exact keeps_of_forall hostOps1_2_keeps
  · exact keeps_of_forall hostOps1_3_keeps
  · exact keeps_of_forall hostOps1_4_keeps

/-! ## The arguments, through the transpose and through the later operations -/

/-- The transpose writes only its own result: the region finds the first table and the ratings as launched. -/
theorem entry_main_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry_main_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before or after the region writes `main_arg1`: it ends as launched. -/
theorem entry_main_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem end_main_arg1 (dats : (p : Fin _) → (c : Dev nD) → Dat τ (Elt F) Unit ℕ (UR sig nD τ) ℕ (cfgs p) c) (c : Dev nD) :
    Pipeline.afterTail₀ cfgs dats 0 (entry m) tail c main_arg1 = m ((c : Thread nD τ).loc main_arg1) := by
  unfold Pipeline.afterTail₀
  rw [StableHlo.after_of_forall_not_mem (b := Proc.devRef .tc main_arg1) _ _ (List.forall_iff_forall_mem.mp (by
    simp only [tail, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (entry m c) _ main_arg1 (by exact (by decide : ∀ w, Pipeline.arrRef spec0 w ≠ main_arg1))]
  exact entry_main_arg1 m c

/-- No operation before or after the region writes `main_arg3`: it ends as launched. -/
theorem entry_main_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem end_main_arg3 (dats : (p : Fin _) → (c : Dev nD) → Dat τ (Elt F) Unit ℕ (UR sig nD τ) ℕ (cfgs p) c) (c : Dev nD) :
    Pipeline.afterTail₀ cfgs dats 0 (entry m) tail c main_arg3 = m ((c : Thread nD τ).loc main_arg3) := by
  unfold Pipeline.afterTail₀
  rw [StableHlo.after_of_forall_not_mem (b := Proc.devRef .tc main_arg3) _ _ (List.forall_iff_forall_mem.mp (by
    simp only [tail, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (entry m c) _ main_arg3 (by exact (by decide : ∀ w, Pipeline.arrRef spec0 w ≠ main_arg3))]
  exact entry_main_arg3 m c

/-- No operation before or after the region writes `main_arg4`: it ends as launched. -/
theorem entry_main_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem end_main_arg4 (dats : (p : Fin _) → (c : Dev nD) → Dat τ (Elt F) Unit ℕ (UR sig nD τ) ℕ (cfgs p) c) (c : Dev nD) :
    Pipeline.afterTail₀ cfgs dats 0 (entry m) tail c main_arg4 = m ((c : Thread nD τ).loc main_arg4) := by
  unfold Pipeline.afterTail₀
  rw [StableHlo.after_of_forall_not_mem (b := Proc.devRef .tc main_arg4) _ _ (List.forall_iff_forall_mem.mp (by
    simp only [tail, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (entry m c) _ main_arg4 (by exact (by decide : ∀ w, Pipeline.arrRef spec0 w ≠ main_arg4))]
  exact entry_main_arg4 m c

/-! ## The windows' blocks -/

/-- Window `w`'s block at point `t`, read off its array as the region finds it: for the ratings and the first
    table the 120 rows of tile `t`, for the transposed second table the whole array. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, whether the pipeline fetched it
    there or not (an unfetched block has not moved: the transposed table is fetched once and stays), for any proof
    data whose array is the entry contents and whose body leaves the block in place. One statement per input
    window: the ratings, the first table, the transposed second table. -/
theorem before_R_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_U_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_VT_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the launch -/

/-- From a run that ends with every array of the region at what the proof data say and every other buffer as the
    later operations leave it, the five arguments end as launched: the ratings and the first table are input
    arrays of the region, the other three are touched by nothing. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (entry m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 1).trans (((dats 0 c).arrAt_in 1 rfl _).trans ((hA c 1).trans (entry_main_arg0 m c))),
     ((h c).2 main_arg1 (Pipeline.mem_restRefs_of main_arg1 (by decide) (by decide))).trans (end_main_arg1 m dats c),
     ((h c).1 0).trans (((dats 0 c).arrAt_in 0 rfl _).trans ((hA c 0).trans (entry_main_arg2 m c))),
     ((h c).2 main_arg3 (Pipeline.mem_restRefs_of main_arg3 (by decide) (by decide))).trans (end_main_arg3 m dats c),
     ((h c).2 main_arg4 (Pipeline.mem_restRefs_of main_arg4 (by decide) (by decide))).trans (end_main_arg4 m dats c)⟩) h

/-! ## When the body clears its accumulator -/

/-- The body's one branch: taken when the point's second coordinate (the tile within the core's share) is 0. -/
abbrev clears (i : grid0.Coords) : Prop := (Scalar.cmpi .ne (Scalar.extui (Scalar.cmpi .eq (BitVec.ofNat 32 (i 1).val) 0#32)) 0#32) = 1#1
/-- Over the grid, row-major: at points 0 and 50, the first point of each core. -/
theorem clears_iff : ∀ t : Fin cfg0.N, clears (grid0.coords t) ↔ t.val % 50 = 0 :=
  (by decide +kernel : ∀ t : Fin grid0.N, clears (grid0.coords t) ↔ t.val % 50 = 0)

/-! ## The staging memrefs the body is called with -/

/-- One staging buffer of the result window, through which its contents are stated (which one does not matter). -/
abbrev resView : View sig .tc .vmem S8x128 .f32 := (Memref.whole cc0_stg3_0 : Memref sig .tc .vmem S8x128 .f32).view
/-- Each window's current staging memref at point `t`, spelled as the pipeline passes it, and its wholeness. -/
abbrev stR (t : Fin cfg0.N) : Memref sig .tc .vmem S120x12000 .f32 := win0_0.stage (cfg0.slots t 0)
abbrev hstR (t : Fin cfg0.N) : (stR t).IsWhole := hstage0_0 ((cfg0.slots t 0).cast nbuf0_0)
abbrev stU (t : Fin cfg0.N) : Memref sig .tc .vmem S120x5 .f32 := win0_1.stage (cfg0.slots t 1)
abbrev hstU (t : Fin cfg0.N) : (stU t).IsWhole := hstage0_1 ((cfg0.slots t 1).cast nbuf0_1)
abbrev stVT (t : Fin cfg0.N) : Memref sig .tc .vmem S5x12000 .f32 := win0_2.stage (cfg0.slots t 2)
abbrev hstVT (t : Fin cfg0.N) : (stVT t).IsWhole := hstage0_2 ((cfg0.slots t 2).cast nbuf0_2)
abbrev stO (t : Fin cfg0.N) : Memref sig .tc .vmem S8x128 .f32 := win0_3.stage (cfg0.slots t 3)
abbrev hstO (t : Fin cfg0.N) : (stO t).IsWhole := hstage0_3 ((cfg0.slots t 3).cast nbuf0_3)

end Cert.KernelIdeal.Hand

end
-- ==== Proof.KI.RunA.lean ====
/- The body at a point where it clears: on whole staging buffers holding the tile's ratings, the tile's rows of
   the first table and the transposed second table, with the result buffer at anything, the body runs to its end
   holding the three inputs as they were and the result buffer with two stores written: the zeros, then the
   accumulated block. The stores are found by running the body; they are the witness. -/
import proofs.«419446_j32796370272277_3_alg».proof.Proof.KI.Kit

-- membership in a rectangle of 120 × 12000 entries is checked structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the result buffer (last first) at a clearing point, with the proof that the body
    runs to its continuation holding the inputs unchanged and the result buffer with those stores written. -/
noncomputable def runClear (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : clears i)
    (xR : Vec F S120x12000 .f32) (xU : Vec F S120x5 .f32) (xVT : Vec F S5x12000 .f32) :
    { L : List (View.Piece (Elt F) S8x128 .f32) //
      ∀ (E : Set ℕ) (K : PUnit → sProp 𝕄),
        iprop(owns (c : Thread nD τ) arg2 fullShare xR ∗ owns (c : Thread nD τ) arg3 fullShare xU ∗ owns (c : Thread nD τ) arg4 fullShare xVT
            ∗ (∃ d, owns (c : Thread nD τ) arg5 fullShare d)
            ∗ (iprop(owns (c : Thread nD τ) arg2 fullShare xR ∗ owns (c : Thread nD τ) arg3 fullShare xU ∗ owns (c : Thread nD τ) arg4 fullShare xVT
                ∗ (∃ f, arg5.view.loc (c : Thread nD τ) ↦[arg5.view.set]{fullShare} arg5.view.writes (Elt F) f L)) -∗ K ⟨⟩))
          ⊢ wp frame (wpE (defs₀ (F := F)) Variants.none c none) E (cc0__loss_kernel i arg2 harg2 arg3 harg3 arg4 harg4 arg5 harg5) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.RunB.lean ====
/- The body at a point where it does not clear: the result buffer holds the running block `xO` the point before
   left, and the body runs to its end holding the three inputs as they were and the result buffer with one store
   written, the accumulated block. -/
import proofs.«419446_j32796370272277_3_alg».proof.Proof.KI.RunA

-- membership in a rectangle of 120 × 12000 entries is checked structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the result buffer at a point that does not clear, with the proof that the body
    runs to its continuation holding the inputs unchanged and the result buffer with those stores written. -/
noncomputable def runAdd (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : ¬clears i)
    (xR : Vec F S120x12000 .f32) (xU : Vec F S120x5 .f32) (xVT : Vec F S5x12000 .f32) (xO : Vec F S8x128 .f32) :
    { L : List (View.Piece (Elt F) S8x128 .f32) //
      ∀ (E : Set ℕ) (K : PUnit → sProp 𝕄),
        iprop(owns (c : Thread nD τ) arg2 fullShare xR ∗ owns (c : Thread nD τ) arg3 fullShare xU ∗ owns (c : Thread nD τ) arg4 fullShare xVT
            ∗ owns (c : Thread nD τ) arg5 fullShare xO
            ∗ (iprop(owns (c : Thread nD τ) arg2 fullShare xR ∗ owns (c : Thread nD τ) arg3 fullShare xU ∗ owns (c : Thread nD τ) arg4 fullShare xVT
                ∗ (∃ f, arg5.view.loc (c : Thread nD τ) ↦[arg5.view.set]{fullShare} arg5.view.writes (Elt F) f L)) -∗ K ⟨⟩))
          ⊢ wp frame (wpE (defs₀ (F := F)) Variants.none c none) E (cc0__loss_kernel i arg2 harg2 arg3 harg3 arg4 harg4 arg5 harg5) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Frame.lean ====
/- The launch of the loss kernel, whole. What the result window's staging buffer holds after each grid point is
   a running block: at a clearing point (the first of each core's fifty) the zeros overwritten by the first tile's
   block, at every other point the block the point before left overwritten by this point's; the buffer is written
   back to rows 8·core … 8·core + 7 of the result array after each core's last point. With that as proof data the
   body meets its obligation at every point, the launch theorem for a region followed by host operations applies,
   and the five arguments end as launched. -/
import proofs.«419446_j32796370272277_3_alg».proof.Proof.KI.RunB

-- membership in a rectangle of 120 × 12000 entries is checked structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a clearing point the body's two stores tile the result block, so they cover it. -/
theorem coverClear (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : clears i)
    (xR : Vec F S120x12000 .f32) (xU : Vec F S120x5 .f32) (xVT : Vec F S5x12000 .f32) (y : S8x128.Idx) :
    ∃ pc ∈ (runClear c i arg2 harg2 arg3 harg3 arg4 harg4 arg5 harg5 hc xR xU xVT).1, y ∈ pc.1.set :=
  View.cover_of_tiledL (runClear c i arg2 harg2 arg3 harg3 arg4 harg4 arg5 harg5 hc xR xU xVT).1 S8x128.size (by sl_kernel_rfl) y

/-- What a clearing point leaves in the result buffer: its stores read back. -/
def outClear (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : clears i)
    (xR : Vec F S120x12000 .f32) (xU : Vec F S120x5 .f32) (xVT : Vec F S5x12000 .f32) : Vec F S8x128 .f32 :=
  resView.read (Elt F) (resView.writes (Elt F) resView.junk (runClear c i arg2 harg2 arg3 harg3 arg4 harg4 arg5 harg5 hc xR xU xVT).1)

/-- At any other point the body's one store covers the result block. -/
theorem coverAdd (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : ¬clears i)
    (xR : Vec F S120x12000 .f32) (xU : Vec F S120x5 .f32) (xVT : Vec F S5x12000 .f32) (xO : Vec F S8x128 .f32) (y : S8x128.Idx) :
    ∃ pc ∈ (runAdd c i arg2 harg2 arg3 harg3 arg4 harg4 arg5 harg5 hc xR xU xVT xO).1, y ∈ pc.1.set :=
  View.cover_of_tiledL (runAdd c i arg2 harg2 arg3 harg3 arg4 harg4 arg5 harg5 hc xR xU xVT xO).1 S8x128.size (by sl_kernel_rfl) y

/-- What such a point leaves in the result buffer, over the running block `xO` it found there. -/
def outAdd (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : ¬clears i)
    (xR : Vec F S120x12000 .f32) (xU : Vec F S120x5 .f32) (xVT : Vec F S5x12000 .f32) (xO : Vec F S8x128 .f32) : Vec F S8x128 .f32 :=
  resView.read (Elt F) (resView.writes (Elt F) resView.junk (runAdd c i arg2 harg2 arg3 harg3 arg4 harg4 arg5 harg5 hc xR xU xVT xO).1)

/-! ## The running block, point by point -/

/-- What the result window's staging buffer holds after the body at position `n` of the grid: a clearing point's
    block from the point's input blocks alone, any other point's over what position `n − 1` left (the buffer is
    not written back in between). -/
def accAt (c : Dev nD) : (n : ℕ) → n < cfg0.N → Vec F S8x128 .f32
  | 0, hn => outClear c (grid0.coords ⟨0, hn⟩) (stR ⟨0, hn⟩) (hstR ⟨0, hn⟩) (stU ⟨0, hn⟩) (hstU ⟨0, hn⟩) (stVT ⟨0, hn⟩) (hstVT ⟨0, hn⟩) (stO ⟨0, hn⟩) (hstO ⟨0, hn⟩) ((clears_iff ⟨0, hn⟩).mpr (Nat.zero_mod _)) (blockAt m c 0 ⟨0, hn⟩) (blockAt m c 1 ⟨0, hn⟩) (blockAt m c 2 ⟨0, hn⟩)
  | n + 1, hn =>
    if h0 : (n + 1) % 50 = 0 then
      outClear c (grid0.coords ⟨n + 1, hn⟩) (stR ⟨n + 1, hn⟩) (hstR ⟨n + 1, hn⟩) (stU ⟨n + 1, hn⟩) (hstU ⟨n + 1, hn⟩) (stVT ⟨n + 1, hn⟩) (hstVT ⟨n + 1, hn⟩) (stO ⟨n + 1, hn⟩) (hstO ⟨n + 1, hn⟩) ((clears_iff ⟨n + 1, hn⟩).mpr h0) (blockAt m c 0 ⟨n + 1, hn⟩) (blockAt m c 1 ⟨n + 1, hn⟩) (blockAt m c 2 ⟨n + 1, hn⟩)
    else
      outAdd c (grid0.coords ⟨n + 1, hn⟩) (stR ⟨n + 1, hn⟩) (hstR ⟨n + 1, hn⟩) (stU ⟨n + 1, hn⟩) (hstU ⟨n + 1, hn⟩) (stVT ⟨n + 1, hn⟩) (hstVT ⟨n + 1, hn⟩) (stO ⟨n + 1, hn⟩) (hstO ⟨n + 1, hn⟩) (fun h => h0 ((clears_iff ⟨n + 1, hn⟩).mp h)) (blockAt m c 0 ⟨n + 1, hn⟩) (blockAt m c 1 ⟨n + 1, hn⟩) (blockAt m c 2 ⟨n + 1, hn⟩) (accAt c n (Nat.lt_of_succ_lt hn))

/-- At a clearing point. -/
theorem accAt_clear (c : Dev nD) (t : Fin cfg0.N) (h0 : t.val % 50 = 0) :
    accAt m c t.val t.isLt = outClear c (grid0.coords t) (stR t) (hstR t) (stU t) (hstU t) (stVT t) (hstVT t) (stO t) (hstO t) ((clears_iff t).mpr h0) (blockAt m c 0 t) (blockAt m c 1 t) (blockAt m c 2 t) := by
  obtain ⟨n, hn⟩ := t
  cases n with
  | zero => exact rfl
  | succ n => exact (dif_pos h0).trans rfl

/-- At any other point: over what the point before left. -/
theorem accAt_add (c : Dev nD) (t : Fin cfg0.N) (h0 : ¬t.val % 50 = 0) :
    accAt m c t.val t.isLt = outAdd c (grid0.coords t) (stR t) (hstR t) (stU t) (hstU t) (stVT t) (hstVT t) (stO t) (hstO t) (fun h => h0 ((clears_iff t).mp h)) (blockAt m c 0 t) (blockAt m c 1 t) (blockAt m c 2 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data of the launch on core `c`: the arrays as the region finds them; after the body at point `t`
    each input's buffer at its block and the result's at the running block; the invariant the scoped rest and
    the generator register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => accAt m c t.val t.isLt
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_R (c : Dev nD) (t : Fin cfg0.N) : (dats m 0 c).after 0 t = blockAt m c 0 t := by dsimp only [dats]
theorem after_U (c : Dev nD) (t : Fin cfg0.N) : (dats m 0 c).after 1 t = blockAt m c 1 t := by dsimp only [dats]
theorem after_VT (c : Dev nD) (t : Fin cfg0.N) : (dats m 0 c).after 2 t = blockAt m c 2 t := by dsimp only [dats]
theorem after_O (c : Dev nD) (t : Fin cfg0.N) : (dats m 0 c).after 3 t = accAt m c t.val t.isLt := by dsimp only [dats]

/-- Each input's current staging buffer holds its block at every point. -/
theorem before_R (c : Dev nD) (t : Fin cfg0.N) (d) : (dats m 0 c).before 0 t d = blockAt m c 0 t :=
  before_R_of m (dats m 0 c) (A_eq m c 0) (after_R m c) t d
theorem before_U (c : Dev nD) (t : Fin cfg0.N) (d) : (dats m 0 c).before 1 t d = blockAt m c 1 t :=
  before_U_of m (dats m 0 c) (A_eq m c 1) (after_U m c) t d
theorem before_VT (c : Dev nD) (t : Fin cfg0.N) (d) : (dats m 0 c).before 2 t d = blockAt m c 2 t :=
  before_VT_of m (dats m 0 c) (A_eq m c 2) (after_VT m c) t d

/-- At a point that does not clear, the result's current staging buffer holds what the body left at the point
    before: the point is not the first, and the buffer is written back only after points 49 and 99, each followed
    by a clearing point or by nothing. -/
theorem before_O_add (c : Dev nD) (t : Fin cfg0.N) (h0 : ¬t.val % 50 = 0) (d) :
    (dats m 0 c).before 3 t d = accAt m c (t.val - 1) (Nat.lt_of_le_of_lt (Nat.sub_le _ _) t.isLt) := by
  have hN : t.val < 100 := lt_of_lt_of_eq t.isLt (show cfg0.N = 100 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stR t) fullShare ((dats m 0 c).before 0 t d))
    ∗ (∃ d, owns (c : Thread nD τ) (stU t) fullShare ((dats m 0 c).before 1 t d))
    ∗ (∃ d, owns (c : Thread nD τ) (stVT t) fullShare ((dats m 0 c).before 2 t d))
    ∗ (∃ d, owns (c : Thread nD τ) (stO t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (stR t) fullShare ((dats m 0 c).after 0 t)
    ∗ owns (c : Thread nD τ) (stU t) fullShare ((dats m 0 c).after 1 t)
    ∗ owns (c : Thread nD τ) (stVT t) fullShare ((dats m 0 c).after 2 t)
    ∗ owns (c : Thread nD τ) (stO t) fullShare ((dats m 0 c).after 3 t))

set_option maxHeartbeats 1600000 in
/-- The body at any point: the inputs' buffers hold their blocks; the point either clears (then the result buffer
    may hold anything) or finds in the result buffer what the point before left; either way the matching run
    applies, and what it leaves is the running block; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_R, before_U, before_VT]
  rw [show (dats m 0 c).Φ t.succ = (dats m 0 c).Φ t.castSucc from rfl,
    show (dats m 0 c).owesAt () t.succ = (dats m 0 c).owesAt () t.castSucc from rfl,
    after_R, after_U, after_VT, after_O]
  have hN : t.val < 100 := lt_of_lt_of_eq t.isLt (show cfg0.N = 100 from N_0)
  by_cases h0 : t.val % 50 = 0
  · rw [accAt_clear m c t h0]
    unfold outClear
    iintro ⟨HΦ, Ho, ⟨%d0, H0⟩, ⟨%d1, H1⟩, ⟨%d2, H2⟩, ⟨%d3, H3⟩⟩
    iapply ((runClear c (grid0.coords t) _ _ _ _ _ _ _ _ ((clears_iff t).mpr h0) (blockAt m c 0 t) (blockAt m c 1 t) (blockAt m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverClear c _ _ _ _ _ _ _ _ _ _ _ _ _)
  · rw [accAt_add m c t h0]
    simp only [before_O_add m c t h0]
    unfold outAdd
    iintro ⟨HΦ, Ho, ⟨%d0, H0⟩, ⟨%d1, H1⟩, ⟨%d2, H2⟩, ⟨%d3, H3⟩⟩
    iapply ((runAdd c (grid0.coords t) _ _ _ _ _ _ _ _ (fun h => h0 ((clears_iff t).mp h)) (blockAt m c 0 t) (blockAt m c 1 t) (blockAt m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverAdd c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 3200000 in
set_option backward.isDefEq.respectTransparency.types false in
/-- From any memory with zero counters every weakly fair execution of @main terminates, and every final state has
    each array of the region at what the proof data say and every other unscoped buffer as the later operations
    leave it. -/
theorem run_main : θ_run defs (onTc (τ := τ) (main (F := F))) (s₀ m ρ) (Pipeline.FramePost cfgs (dats m) 0 (Pipeline.afterTail₀ cfgs (dats m) 0 (entry m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := tail) (hsub := tail_sub) (hfresh := tail_fresh) (hkeep := tail_keeps)
    (hmain := main_around m Variants.none) (hA := A_eq m) (hΦ := fun _ _ => rfl)

/-- The frame: the program runs to its end without a fault and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_run m ρ (dats m) (A_eq m) (run_main m ρ)

end Cert.KernelIdeal.Hand

end
-- ==== Proof.KI.Pieces.lean ====
/- What the body's stores ARE, case by case: at a point that does not clear, the one store is the body's second
   payload of the three input blocks and the running block found in the result buffer; at a clearing point the
   zeros are stored first, read back, and the same payload of them is stored over them. -/
import proofs.«419446_j32796370272277_3_alg».proof.Proof.KI.Frame
import Idealize.ShloMosaic.Lib.Pipeline.Value

-- membership in a rectangle of 120 × 12000 entries is checked structurally, one step per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeroOffsets : (![0, 0] : Fin 2 → Nat) = fun _ => 0 := funext fun a => by fin_cases a <;> rfl

/-- A point that does not clear leaves the accumulated block over what it found. -/
theorem outAdd_eq (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : ¬clears i)
    (xR : Vec F S120x12000 .f32) (xU : Vec F S120x5 .f32) (xVT : Vec F S5x12000 .f32) (xO : Vec F S8x128 .f32) :
    outAdd c i arg2 harg2 arg3 harg3 arg4 harg4 arg5 harg5 hc xR xU xVT xO = k0_pay2 xU xVT xR xO := by
  unfold outAdd
  rw [View.read_writes_eq_canon _ _ _ (coverAdd c i arg2 harg2 arg3 harg3 arg4 harg4 arg5 harg5 hc xR xU xVT xO)]
  unfold runAdd
  dsimp only
  sl_unfold_words
  rw [View.canon_unit_zero zeroOffsets]
  simp only [View.readAt_eq_ld, harg2.read_unread, harg3.read_unread, harg4.read_unread, harg5.read_unread,
    View.ld_unit_zero (S := S120x12000) zeroOffsets, View.ld_unit_zero (S := S120x5) zeroOffsets,
    View.ld_unit_zero (S := S5x12000) zeroOffsets, View.ld_unit_zero (S := S8x128) zeroOffsets]

/-- A clearing point leaves the accumulated block over the zeros it has just stored. -/
theorem outClear_eq (c : Dev nD) (i : grid0.Coords) (arg2 : Memref sig .tc .vmem S120x12000 .f32) (harg2 : arg2.IsWhole) (arg3 : Memref sig .tc .vmem S120x5 .f32) (harg3 : arg3.IsWhole) (arg4 : Memref sig .tc .vmem S5x12000 .f32) (harg4 : arg4.IsWhole) (arg5 : Memref sig .tc .vmem S8x128 .f32) (harg5 : arg5.IsWhole) (hc : clears i)
    (xR : Vec F S120x12000 .f32) (xU : Vec F S120x5 .f32) (xVT : Vec F S5x12000 .f32) :
    outClear c i arg2 harg2 arg3 harg3 arg4 harg4 arg5 harg5 hc xR xU xVT = k0_pay2 xU xVT xR (k0_pay1 (F := F)) := by
  unfold outClear
  rw [View.read_writes_eq_canon _ _ _ (coverClear c i arg2 harg2 arg3 harg3 arg4 harg4 arg5 harg5 hc xR xU xVT)]
  unfold runClear
  dsimp only
  sl_unfold_words
  rw [View.canon_cons_unit_zero (S := S8x128) zeroOffsets, View.readCov_unit_zero (S := S8x128) _ zeroOffsets]
  simp only [View.readAt_eq_ld, harg2.read_unread, harg3.read_unread, harg4.read_unread,
    View.ld_unit_zero (S := S120x12000) zeroOffsets, View.ld_unit_zero (S := S120x5) zeroOffsets,
    View.ld_unit_zero (S := S5x12000) zeroOffsets, View.ld_unit_zero (S := S8x128) zeroOffsets]

end Cert.KernelIdeal.Hand

end
-- ==== Proof.Spec.lean ====
/- The mathematics both programs compute, stated once over the argument arrays and over no program.
   With U, V : 12000 × 5 tables, R : 12000 × 12000 ratings and u, v : 1000000 row numbers (signed 32-bit words):
     loss  = Σ_{i,j} obs(R i j) · (R i j − Σ_k U i k · V j k)² + λ · Σ U² + λ · Σ V²,   obs x = 1 if x ≠ 0 else 0,
     preds n = Σ_{k<4} U (row (u n)) k · V (row (v n)) k,
   where a row number x names row x when 0 ≤ x and row x + 12000 when x < 0 (the result clamped into the table),
   λ the binary value of the literal both programs share. The sums are finite sums in the extended reals, whose
   addition is commutative and associative, so the loss may be summed tile by tile: rows 120·t … 120·t + 119 for
   t < 100, the first fifty tiles and the last fifty added up separately and then together. -/
import Idealize.ShloMosaic.Lib.ValueIdx

noncomputable section

open scoped BigOperators

namespace Cert.Spec

open Idealize.ShloMosaic Idealize.ShloMosaic.ValueIdx

/-- The shape of the two factor tables. -/
abbrev STab : Shape := ⟨2, ![12000, 5]⟩
/-- The shape of the ratings. -/
abbrev SRat : Shape := ⟨2, ![12000, 12000]⟩
/-- The shape of a list of row numbers. -/
abbrev SIx : Shape := ⟨1, ![1000000]⟩
/-- A tile of the ratings: 120 whole rows. -/
abbrev SRatTile : Shape := ⟨2, ![120, 12000]⟩
/-- The rows of the first table that go with a tile. -/
abbrev STabTile : Shape := ⟨2, ![120, 5]⟩
/-- The second table transposed. -/
abbrev STabT : Shape := ⟨2, ![5, 12000]⟩

/-- 1 at an observed (nonzero) rating, 0 at an unobserved one. -/
def obs (x : EReal) : EReal := if x ≠ 0 then 1 else 0

/-- The masked squared error of one rating, multiplied in the order both programs multiply:
    (obs · err) · err with err = R i j − Σ_k U i k · V j k. -/
def sqErr (U V : STab.Idx → EReal) (R : SRat.Idx → EReal) (i j : Fin 12000) : EReal :=
  (obs (R (ix2 i j)) * (R (ix2 i j) - ∑ k : Fin 5, U (ix2 i k) * V (ix2 j k)))
    * (R (ix2 i j) - ∑ k : Fin 5, U (ix2 i k) * V (ix2 j k))

/-- The data term of the loss: every rating's masked squared error. -/
def lossCore (U V : STab.Idx → EReal) (R : SRat.Idx → EReal) : EReal :=
  ∑ i : Fin 12000, ∑ j : Fin 12000, sqErr U V R i j

/-- The same masked squared errors over ONE tile handed over as blocks: `r` 120 rows of ratings, `u` the same
    120 rows of the first table, `vt` the second table transposed. -/
def tileTerm (u : STabTile.Idx → EReal) (vt : STabT.Idx → EReal) (r : SRatTile.Idx → EReal) : EReal :=
  ∑ a : Fin 120, ∑ j : Fin 12000,
    (obs (r (ix2 a j)) * (r (ix2 a j) - ∑ k : Fin 5, u (ix2 a k) * vt (ix2 k j)))
      * (r (ix2 a j) - ∑ k : Fin 5, u (ix2 a k) * vt (ix2 k j))

/-- Row `a` of tile `t` is row 120·t + a of the whole array. -/
def tileRow (t : Fin 100) (a : Fin 120) : Fin 12000 := ⟨120 * t.val + a.val, by omega⟩

/-- Tile `t`'s share of the data term. -/
def tileTotal (U V : STab.Idx → EReal) (R : SRat.Idx → EReal) (t : Fin 100) : EReal :=
  ∑ a : Fin 120, ∑ j : Fin 12000, sqErr U V R (tileRow t a) j

/-- Tile totals indexed by a bare natural number (0 past the last tile), the form an induction over the grid's
    points produces. -/
def tileTotalN (U V : STab.Idx → EReal) (R : SRat.Idx → EReal) (s : ℕ) : EReal :=
  if h : s < 100 then tileTotal U V R ⟨s, h⟩ else 0

/-- A running total started from 0 and extended one term at a time, left to right, as an accumulator that is
    cleared and then added to once per step holds it: after step n it is ((0 + T 0) + T 1) + … + T n. -/
def runTotal (T : ℕ → EReal) : ℕ → EReal
  | 0 => 0 + T 0
  | n + 1 => runTotal T n + T (n + 1)

/-- A weight-decay term: the shared literal (binary value of 0.01 in f32) times the sum of squares, the sum
    started from 0 as both programs start it. -/
def regTerm (X : STab.Idx → EReal) : EReal :=
  Ideal.ofBits .f32 0x3C23D70A#32 * (0 + ∑ i : STab.Idx, X i * X i)

/-- The loss, associated as both programs add it up. -/
def lossG (U V : STab.Idx → EReal) (R : SRat.Idx → EReal) : EReal :=
  (lossCore U V R + regTerm U) + regTerm V

/-- A row number after the wrap both programs apply: x + 12000 (in 32-bit arithmetic) when x is negative. -/
def wrapRow (x : BitVec 32) : BitVec 32 := if x.toInt < 0 then x + 12000#32 else x

/-- The table row a row number names: the wrapped word read signed and clamped into [0, 11999]. -/
def rowOf (x : BitVec 32) : Fin 12000 := ⟨min (wrapRow x).toInt.toNat 11999, by omega⟩

/-- The row numbers for which neither program leaves the table: −12000 ≤ x < 12000. -/
def InRange (u : SIx.Idx → BitVec 32) : Prop := ∀ n, -12000 ≤ (u n).toInt ∧ (u n).toInt < 12000

/-- A prediction: the first four latent dimensions of the two named rows, multiplied and added. -/
def predsG (U V : STab.Idx → EReal) (u v : SIx.Idx → BitVec 32) (n : Fin 1000000) : EReal :=
  ∑ k : Fin 4, U (ix2 (rowOf (u (ix1 n))) (Fin.castSucc k)) * V (ix2 (rowOf (v (ix1 n))) (Fin.castSucc k))

end Cert.Spec

end
-- ==== Proof.Payload.lean ====
/- What the kernel body stores, read at an index over the extended reals. -/
import proofs.«419446_j32796370272277_3_alg».proof.Proof.Gen.KernelIdeal.Skeleton
import proofs.«419446_j32796370272277_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The value the first point of each core's run clears its accumulator with is 0 everywhere. -/
theorem pay1_apply (y : S8x128.Idx) : k0_pay1 (F := Ideal) y = (0 : EReal) := by
  unfold k0_pay1
  exact Ideal.ofBits_zero_f32

/-- The mask of observed ratings: 1 where the rating is not 0, else 0. -/
theorem mask_apply (r : FVec Ideal S120x12000 .f32) (i : S120x12000.Idx) :
    (sitofp (F := Ideal) .f32 (extui 32 (cmpf .one r (broadcast S120x12000 (Scalar.ofBits (F := Ideal) .f32 0x00000000#32))) natLt_1_32) : FVec Ideal S120x12000 .f32) i
      = Cert.Spec.obs (r i) := by
  show (((BitVec.setWidth 32 (Ideal.cmp .one (r i) (Ideal.ofBits .f32 0x00000000#32))).toInt : ℝ) : EReal) = _
  rw [Ideal.ofBits_zero_f32]
  unfold Ideal.cmp Cert.Spec.obs
  by_cases h : r i = 0
  · simp [h]
  · simp [h]

/-- A row's sum: the reduction over the columns of a 120 × 12000 block at row a. -/
theorem rowSum_apply (w : FVec Ideal S120x12000 .f32) (a : Fin 120) :
    multiReduction (F := Ideal) .add [1] S120 w 0x00000000#32 reduces_S120x12000_S120 (.inl rfl) rfl (ix1 a)
      = ∑ j : Fin 12000, w (ix2 a j) := by
  refine (Ideal.multiReduction_add_single (φ := .f32) w 0x00000000#32 reduces_S120x12000_S120 (.inl rfl) rfl (ix1 a)).trans ?_
  refine Finset.sum_congr rfl fun j _ => congrArg w ?_
  funext c
  match c with
  | ⟨0, _⟩ => rfl
  | ⟨1, _⟩ => rfl

/-- The column of 120 row sums read as a 120 × 1 block. -/
theorem col_apply (w : FVec Ideal S120 .f32) (a : Fin 120) (z : Fin 1) :
    shapeCast S120x1 w shapeCasts_S120_S120x1 (ix2 a z) = w (ix1 a) :=
  shapeCast_apply w shapeCasts_S120_S120x1 _ _ (by
    have hz : z.val = 0 := by omega
    rw [Shape.rowMajor_val_one, Shape.rowMajor_val_two]
    show a.val = a.val * 1 + z.val
    rw [hz, Nat.mul_one, Nat.add_zero])

/-- The sum down the one column of a 120 × 1 block. -/
theorem colSum_apply (w : FVec Ideal S120x1 .f32) (c : Fin 1) :
    multiReduction (F := Ideal) .add [0] S1 w 0x00000000#32 reduces_S120x1_S1 (.inl rfl) rfl (ix1 c)
      = ∑ a : Fin 120, w (ix2 a c) := by
  refine (Ideal.multiReduction_add_single (φ := .f32) w 0x00000000#32 reduces_S120x1_S1 (.inl rfl) rfl (ix1 c)).trans ?_
  refine Finset.sum_congr rfl fun a _ => congrArg w ?_
  funext d
  match d with
  | ⟨0, _⟩ => rfl
  | ⟨1, _⟩ => rfl

/-- A one-entry vector read as a 1 × 1 block. -/
theorem one_apply (w : FVec Ideal S1 .f32) (c d : Fin 1) :
    shapeCast S1x1 w shapeCasts_S1_S1x1 (ix2 c d) = w (ix1 d) :=
  shapeCast_apply w shapeCasts_S1_S1x1 _ _ (by
    have hc : c.val = 0 := by omega
    rw [Shape.rowMajor_val_one, Shape.rowMajor_val_two]
    show d.val = c.val * 1 + d.val
    rw [hc, Nat.zero_mul, Nat.zero_add])

/-- The 1 × 1 block spread over the 8 × 128 block reads its one entry everywhere. -/
theorem spread_apply (w : FVec Ideal S1x1 .f32) (p : Fin 8) (q : Fin 128) :
    broadcastTo S8x128 w broadcasts_S1x1_S8x128 (ix2 p q) = w (ix2 (0 : Fin 1) (0 : Fin 1)) := by
  refine broadcastTo_apply w broadcasts_S1x1_S8x128 (ix2 p q) (ix2 (0 : Fin 1) (0 : Fin 1)) fun ax => ?_
  match ax with
  | ⟨0, _⟩ => rfl
  | ⟨1, _⟩ => rfl

/-- The product's left operand index on its row axis is the output's row. -/
theorem lhs_dot_0 (i : S120x12000.Idx) (q : dot_S120x5_S5x12000_S120x12000_1_0_0_1_n_n.contr.Idx) :
    (dot_S120x5_S5x12000_S120x12000_1_0_0_1_n_n.lhsIdx i q 0).val = (i 0).val := by
  unfold DotDims.lhsIdx
  rw [dif_neg (show ¬(0 : Fin S120x5.rank) ∈ dot_S120x5_S5x12000_S120x12000_1_0_0_1_n_n.lhsBatch by decide), dif_pos (show (0 : Fin S120x5.rank) ∈ dot_S120x5_S5x12000_S120x12000_1_0_0_1_n_n.lhsNonContracting by decide)]
  rfl
/-- The left operand index on its column axis is the contraction coordinate. -/
theorem lhs_dot_1 (i : S120x12000.Idx) (q : dot_S120x5_S5x12000_S120x12000_1_0_0_1_n_n.contr.Idx) :
    (dot_S120x5_S5x12000_S120x12000_1_0_0_1_n_n.lhsIdx i q 1).val = (q ⟨0, by decide⟩).val :=
  dot_S120x5_S5x12000_S120x12000_1_0_0_1_n_n.lhsIdx_val_of_single rfl i q
/-- The right operand index on its row axis is the contraction coordinate. -/
theorem rhs_dot_0 (i : S120x12000.Idx) (q : dot_S120x5_S5x12000_S120x12000_1_0_0_1_n_n.contr.Idx) :
    (dot_S120x5_S5x12000_S120x12000_1_0_0_1_n_n.rhsIdx i q 0).val = (q ⟨0, by decide⟩).val :=
  dot_S120x5_S5x12000_S120x12000_1_0_0_1_n_n.rhsIdx_val_of_single rfl i q
/-- The right operand index on its column axis is the output's column. -/
theorem rhs_dot_1 (i : S120x12000.Idx) (q : dot_S120x5_S5x12000_S120x12000_1_0_0_1_n_n.contr.Idx) :
    (dot_S120x5_S5x12000_S120x12000_1_0_0_1_n_n.rhsIdx i q 1).val = (i 1).val := by
  unfold DotDims.rhsIdx
  rw [dif_neg (show ¬(1 : Fin S5x12000.rank) ∈ dot_S120x5_S5x12000_S120x12000_1_0_0_1_n_n.rhsBatch by decide), dif_pos (show (1 : Fin S5x12000.rank) ∈ dot_S120x5_S5x12000_S120x12000_1_0_0_1_n_n.rhsNonContracting by decide)]
  rfl

/-- The product of a 120 × 5 block and a 5 × 12000 block into a zero block, at (a, j): the sum over the five
    shared coordinates of the products. -/
theorem prod_apply (u : FVec Ideal S120x5 .bf16) (vt : FVec Ideal S5x12000 .bf16) (a : Fin 120) (j : Fin 12000) :
    matmul dot_S120x5_S5x12000_S120x12000_1_0_0_1_n_n none u vt (constant (F := Ideal) S120x12000 .f32 0x00000000#32) (ix2 a j)
      = ∑ k : Fin 5, u (ix2 a k) * vt (ix2 k j) := by
  refine (Ideal.matmul_constant_zero_apply dot_S120x5_S5x12000_S120x12000_1_0_0_1_n_n none u vt (ix2 a j)).trans ?_
  rw [← Equiv.sum_comp (ValueIdx.contrEquiv1 dot_S120x5_S5x12000_S120x12000_1_0_0_1_n_n 5 rfl rfl).symm]
  refine Finset.sum_congr rfl fun k _ => ?_
  have hk := ValueIdx.contrEquiv1_symm_val dot_S120x5_S5x12000_S120x12000_1_0_0_1_n_n 5 rfl rfl k
  have el : dot_S120x5_S5x12000_S120x12000_1_0_0_1_n_n.lhsIdx (ix2 a j) ((ValueIdx.contrEquiv1 dot_S120x5_S5x12000_S120x12000_1_0_0_1_n_n 5 rfl rfl).symm k) = ix2 a k := funext fun c => Fin.ext (by
    match c with
    | ⟨0, _⟩ => exact lhs_dot_0 _ _
    | ⟨1, _⟩ => exact (lhs_dot_1 _ _).trans hk)
  have er : dot_S120x5_S5x12000_S120x12000_1_0_0_1_n_n.rhsIdx (ix2 a j) ((ValueIdx.contrEquiv1 dot_S120x5_S5x12000_S120x12000_1_0_0_1_n_n 5 rfl rfl).symm k) = ix2 k j := funext fun c => Fin.ext (by
    match c with
    | ⟨0, _⟩ => exact (rhs_dot_0 _ _).trans hk
    | ⟨1, _⟩ => exact rhs_dot_1 _ _)
  rw [el, er]

/-- The error block at (a, j): the rating minus the product of the two factor blocks there. -/
theorem err_apply (u : FVec Ideal S120x5 .f32) (vt : FVec Ideal S5x12000 .f32) (r : FVec Ideal S120x12000 .f32)
    (a : Fin 120) (j : Fin 12000) :
    subf r (matmul dot_S120x5_S5x12000_S120x12000_1_0_0_1_n_n none (truncf .bf16 u bitsLt_bf16_f32)
        (truncf .bf16 (shapeCast S5x12000 vt shapeCasts_S5x12000_S5x12000) bitsLt_bf16_f32)
        (constant (F := Ideal) S120x12000 .f32 0x00000000#32)) (ix2 a j)
      = r (ix2 a j) - ∑ k : Fin 5, u (ix2 a k) * vt (ix2 k j) := by
  refine (subf_apply _ _ _).trans ?_
  refine congrArg (r (ix2 a j) - ·) ?_
  refine (prod_apply _ _ a j).trans ?_
  refine Finset.sum_congr rfl fun k _ => ?_
  refine congrArg₂ (· * ·) rfl ?_
  exact congrFun (shapeCast_self vt shapeCasts_S5x12000_S5x12000) (ix2 k j)

/-- Every entry of the stored block is the accumulator's entry plus the tile's term. -/
theorem pay2_apply (u : Vec Ideal S120x5 .f32) (vt : Vec Ideal S5x12000 .f32) (r : Vec Ideal S120x12000 .f32)
    (acc : Vec Ideal S8x128 .f32) (y : S8x128.Idx) :
    k0_pay2 (F := Ideal) u vt r acc y = acc y + Cert.Spec.tileTerm u vt r := by
  obtain ⟨p, q, rfl⟩ : ∃ (p : Fin 8) (q : Fin 128), y = ix2 p q := ⟨y 0, y 1, eq_ix2 y⟩
  unfold k0_pay2
  refine (addf_apply _ _ _).trans ?_
  refine congrArg₂ (· + ·) (congrFun (shapeCast_self acc shapeCasts_S8x128_S8x128) (ix2 p q)) ?_
  refine (spread_apply _ p q).trans ?_
  refine (congrFun (shapeCast_self _ shapeCasts_S1x1_S1x1) _).trans ?_
  refine (one_apply _ 0 0).trans ?_
  refine (colSum_apply _ 0).trans ?_
  unfold Cert.Spec.tileTerm
  refine Finset.sum_congr rfl fun a _ => ?_
  refine (col_apply _ a 0).trans ?_
  refine (rowSum_apply _ a).trans ?_
  refine Finset.sum_congr rfl fun j _ => ?_
  refine (mulf_apply _ _ _).trans ?_
  refine congrArg₂ (· * ·) ((mulf_apply _ _ _).trans (congrArg₂ (· * ·) (mask_apply r (ix2 a j)) ?_)) ?_
  · exact err_apply u vt r a j
  · exact err_apply u vt r a j

end Cert.KernelIdeal.Payload

end
-- ==== Proof.SumTiles.lean ====
/- Counting: the loss's data term summed tile by tile, and a tile's blocks against the whole arrays. -/
import proofs.«419446_j32796370272277_3_alg».proof.Proof.Spec
import Mathlib.Algebra.BigOperators.Fin
import Mathlib.Algebra.BigOperators.Intervals
import Mathlib.Data.Fintype.BigOperators

noncomputable section

open scoped BigOperators

namespace Cert.Spec

open Idealize.ShloMosaic Idealize.ShloMosaic.ValueIdx

/-- A running total is the finite sum of its terms. -/
theorem runTotal_eq_sum (T : ℕ → EReal) (n : ℕ) : runTotal T n = ∑ s ∈ Finset.range (n + 1), T s := by
  induction n with
  | zero =>
    show (0 : EReal) + T 0 = _
    rw [Finset.sum_range_one, zero_add]
  | succ n ih =>
    show runTotal T n + T (n + 1) = _
    rw [ih, Finset.sum_range_succ _ (n + 1)]

/-- Rows of the whole array are the pairs (tile, row within the tile): i ↦ (i / 120, i % 120) undoes
    (t, a) ↦ 120·t + a. -/
private def tileEquiv : Fin 100 × Fin 120 ≃ Fin 12000 where
  toFun p := tileRow p.1 p.2
  invFun i := (⟨i.val / 120, by have := i.isLt; omega⟩, ⟨i.val % 120, by omega⟩)
  left_inv p := by
    obtain ⟨⟨t, ht⟩, ⟨a, ha⟩⟩ := p
    simp only [tileRow, Prod.mk.injEq, Fin.mk.injEq]
    constructor <;> omega
  right_inv i := by
    obtain ⟨i, hi⟩ := i
    simp only [tileRow, Fin.mk.injEq]
    omega

/-- The data term is the sum of the hundred tiles' totals. -/
private theorem lossCore_eq_sum_tiles (U V : STab.Idx → EReal) (R : SRat.Idx → EReal) :
    lossCore U V R = ∑ t : Fin 100, tileTotal U V R t := by
  unfold lossCore tileTotal
  rw [← Fintype.sum_equiv tileEquiv
    (fun p : Fin 100 × Fin 120 => ∑ j : Fin 12000, sqErr U V R (tileRow p.1 p.2) j)
    (fun i : Fin 12000 => ∑ j : Fin 12000, sqErr U V R i j) (fun _ => rfl)]
  exact Fintype.sum_prod_type _

/-- The first fifty tiles' totals and the last fifty's, added up, are the whole data term. -/
theorem tiles_sum (U V : STab.Idx → EReal) (R : SRat.Idx → EReal) :
    (∑ s ∈ Finset.range 50, tileTotalN U V R s) + (∑ s ∈ Finset.range 50, tileTotalN U V R (50 + s)) = lossCore U V R := by
  rw [← Finset.sum_range_add (tileTotalN U V R) 50 50, lossCore_eq_sum_tiles,
    ← Fin.sum_univ_eq_sum_range (tileTotalN U V R) (50 + 50)]
  refine Finset.sum_congr rfl (fun t _ => ?_)
  unfold tileTotalN
  rw [dif_pos t.isLt]

/-- A tile's term over its blocks is that tile's total, when the blocks are the tile's rows of the arrays. -/
theorem tileTerm_eq_tileTotal (U V : STab.Idx → EReal) (R : SRat.Idx → EReal) (t : Fin 100)
    (u : STabTile.Idx → EReal) (vt : STabT.Idx → EReal) (r : SRatTile.Idx → EReal)
    (hu : ∀ (a : Fin 120) (k : Fin 5), u (ix2 a k) = U (ix2 (tileRow t a) k))
    (hvt : ∀ (k : Fin 5) (j : Fin 12000), vt (ix2 k j) = V (ix2 j k))
    (hr : ∀ (a : Fin 120) (j : Fin 12000), r (ix2 a j) = R (ix2 (tileRow t a) j)) :
    tileTerm u vt r = tileTotal U V R t := by
  unfold tileTerm tileTotal sqErr
  refine Finset.sum_congr rfl (fun a _ => Finset.sum_congr rfl (fun j _ => ?_))
  have hk : (∑ k : Fin 5, u (ix2 a k) * vt (ix2 k j))
      = ∑ k : Fin 5, U (ix2 (tileRow t a) k) * V (ix2 j k) :=
    Finset.sum_congr rfl (fun k _ => by rw [hu, hvt])
  rw [hk, hr]

end Cert.Spec

end
-- ==== Proof.KI.Value.lean ====
/- The loss kernel's result array, read over the extended reals. After position n of the grid the result
   buffer holds, in every entry, the running total of the tile terms of the current core's tiles so far (cleared at
   the core's first tile, one term added per point); it is written back after each core's fiftieth tile, to rows
   0–7 for the first core and rows 8–15 for the second. So entries (0, 0) and (8, 0) of the result array are the two
   cores' totals, and together they are the whole data term of the loss. -/
import proofs.«419446_j32796370272277_3_alg».proof.Proof.KI.Pieces
import proofs.«419446_j32796370272277_3_alg».proof.Proof.Payload
import proofs.«419446_j32796370272277_3_alg».proof.Proof.SumTiles
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-! ## The blocks, at their literal types, and what they read -/

/-- Tile `t`'s rows of the ratings. -/
abbrev rBlk (c : Dev nD) (t : Fin cfg0.N) : Vec Ideal S120x12000 .f32 := blockAt m c 0 t
/-- Tile `t`'s rows of the first table. -/
abbrev uBlk (c : Dev nD) (t : Fin cfg0.N) : Vec Ideal S120x5 .f32 := blockAt m c 1 t
/-- The transposed second table (the same block at every point). -/
abbrev vtBlk (c : Dev nD) (t : Fin cfg0.N) : Vec Ideal S5x12000 .f32 := blockAt m c 2 t

/-- The argument arrays on core `c`, at their literal types. -/
abbrev argU (c : Dev nD) : STab.Idx → EReal := m ((c : Thread nD τ).loc main_arg0)
abbrev argV (c : Dev nD) : STab.Idx → EReal := m ((c : Thread nD τ).loc main_arg1)
abbrev argR (c : Dev nD) : SRat.Idx → EReal := m ((c : Thread nD τ).loc main_arg2)

/-- Over the grid, row-major (point t = 50·core + tile): the ratings' and the first table's block index is t
    along the rows and 0 along the columns; the result's is the core. -/
theorem index_R : ∀ t : Fin cfg0.N, win0_0.index t 0 = t.val ∧ win0_0.index t 1 = 0 :=
  (by decide +kernel : ∀ t : Fin grid0.N, win0_0.index t 0 = t.val ∧ win0_0.index t 1 = 0)
theorem index_U : ∀ t : Fin cfg0.N, win0_1.index t 0 = t.val ∧ win0_1.index t 1 = 0 :=
  (by decide +kernel : ∀ t : Fin grid0.N, win0_1.index t 0 = t.val ∧ win0_1.index t 1 = 0)
theorem index_VT : ∀ t : Fin cfg0.N, win0_2.index t 0 = 0 ∧ win0_2.index t 1 = 0 :=
  (by decide +kernel : ∀ t : Fin grid0.N, win0_2.index t 0 = 0 ∧ win0_2.index t 1 = 0)
theorem index_O : ∀ t : Fin cfg0.N, win0_3.index t 0 = t.val / 50 ∧ win0_3.index t 1 = 0 :=
  (by decide +kernel : ∀ t : Fin grid0.N, win0_3.index t 0 = t.val / 50 ∧ win0_3.index t 1 = 0)

/-- Row `a` of tile `t`'s block of the ratings is row 120·t + a of the ratings. -/
theorem rBlk_apply (c : Dev nD) (t : Fin cfg0.N) (ht : t.val < 100) (a : Fin 120) (j : Fin 12000) :
    rBlk m c t (ix2 a j) = argR m c (ix2 (tileRow ⟨t.val, ht⟩ a) j) := by
  unfold rBlk blockAt
  rw [View.read_apply]
  show atEntry m c main_arg2 _ = _
  rw [entry_main_arg2]
  show m ((c : Thread nD τ).loc main_arg2) _ = m ((c : Thread nD τ).loc main_arg2) _
  congr 1
  funext d
  apply Fin.ext
  match d with
  | ⟨0, _⟩ => show win0_0.index t 0 * 120 + 1 * a.val = 120 * t.val + a.val; rw [(index_R t).1]; omega
  | ⟨1, _⟩ => show win0_0.index t 1 * 12000 + 1 * j.val = j.val; rw [(index_R t).2]; omega

/-- The same for the first table. -/
theorem uBlk_apply (c : Dev nD) (t : Fin cfg0.N) (ht : t.val < 100) (a : Fin 120) (k : Fin 5) :
    uBlk m c t (ix2 a k) = argU m c (ix2 (tileRow ⟨t.val, ht⟩ a) k) := by
  unfold uBlk blockAt
  rw [View.read_apply]
  show atEntry m c main_arg0 _ = _
  rw [entry_main_arg0]
  show m ((c : Thread nD τ).loc main_arg0) _ = m ((c : Thread nD τ).loc main_arg0) _
  congr 1
  funext d
  apply Fin.ext
  match d with
  | ⟨0, _⟩ => show win0_1.index t 0 * 120 + 1 * a.val = 120 * t.val + a.val; rw [(index_U t).1]; omega
  | ⟨1, _⟩ => show win0_1.index t 1 * 5 + 1 * k.val = k.val; rw [(index_U t).2]; omega

/-- What the region finds in the transposed table's buffer: the second table, transposed. -/
theorem entry_main_v0 (c : Dev nD) :
    (atEntry m c main_v0 : S5x12000.Idx → EReal) = transpose S5x12000 [1, 0] (m ((c : Thread nD τ).loc main_arg1)) transposes_S12000x5_S5x12000_1_0 := by
  dsimp only [atEntry, entry]
  simp only [hostOps0, List.flatten_cons, List.flatten_nil, List.append_nil]
  after_results

/-- Entry (k, j) of the transposed table's block is entry (j, k) of the second table. -/
theorem vtBlk_apply (c : Dev nD) (t : Fin cfg0.N) (k : Fin 5) (j : Fin 12000) :
    vtBlk m c t (ix2 k j) = argV m c (ix2 j k) := by
  unfold vtBlk blockAt
  rw [View.read_apply]
  show (atEntry m c main_v0 : S5x12000.Idx → EReal) _ = _
  rw [entry_main_v0]
  have e : (((cfg0.win 2).blk t).view.emb (ix2 k j) : S5x12000.Idx) = ix2 k j := by
    funext d
    apply Fin.ext
    match d with
    | ⟨0, _⟩ => show win0_2.index t 0 * 5 + 1 * k.val = k.val; rw [(index_VT t).1]; omega
    | ⟨1, _⟩ => show win0_2.index t 1 * 12000 + 1 * j.val = j.val; rw [(index_VT t).2]; omega
  rw [e]
  exact transpose_ix2_apply _ _ _ _

/-! ## The running total -/

/-- The tile term of the blocks at position `s` of the grid (0 past the grid). -/
def tileAt (c : Dev nD) (s : ℕ) : EReal :=
  if h : s < cfg0.N then tileTerm (uBlk m c ⟨s, h⟩) (vtBlk m c ⟨s, h⟩) (rBlk m c ⟨s, h⟩) else 0

/-- It is that tile's share of the data term. -/
theorem tileAt_eq (c : Dev nD) (s : ℕ) : tileAt m c s = tileTotalN (argU m c) (argV m c) (argR m c) s := by
  have hN : cfg0.N = 100 := N_0
  unfold tileAt tileTotalN
  by_cases h : s < 100
  · rw [dif_pos (by omega : s < cfg0.N), dif_pos h]
    exact tileTerm_eq_tileTotal (argU m c) (argV m c) (argR m c) ⟨s, h⟩ _ _ _
      (fun a k => uBlk_apply m c ⟨s, by omega⟩ h a k) (fun k j => vtBlk_apply m c ⟨s, by omega⟩ k j)
      (fun a j => rBlk_apply m c ⟨s, by omega⟩ h a j)
  · rw [dif_neg (by omega : ¬s < cfg0.N), dif_neg h]

/-- After position `n` every entry of the result buffer is the running total of the current core's tile terms:
    cleared at positions 0 and 50, one term added per position. -/
theorem accAt_apply (c : Dev nD) : ∀ (n : ℕ) (h : n < cfg0.N) (y : S8x128.Idx),
    (accAt m c n h : Vec Ideal S8x128 .f32) y = runTotal (fun s => tileAt m c (50 * (n / 50) + s)) (n % 50)
  | 0, h, y => by
    rw [accAt_clear m c ⟨0, h⟩ rfl, outClear_eq, Cert.KernelIdeal.Payload.pay2_apply, Cert.KernelIdeal.Payload.pay1_apply]
    show (0 : EReal) + _ = (0 : EReal) + tileAt m c (50 * (0 / 50) + 0)
    unfold tileAt
    rw [dif_pos h]
  | n + 1, h, y => by
    have hN : cfg0.N = 100 := N_0
    by_cases h0 : (n + 1) % 50 = 0
    · rw [accAt_clear m c ⟨n + 1, h⟩ h0, outClear_eq, Cert.KernelIdeal.Payload.pay2_apply, Cert.KernelIdeal.Payload.pay1_apply, h0]
      show (0 : EReal) + _ = (0 : EReal) + tileAt m c (50 * ((n + 1) / 50) + 0)
      rw [show 50 * ((n + 1) / 50) + 0 = n + 1 from by omega]
      unfold tileAt
      rw [dif_pos h]
    · rw [accAt_add m c ⟨n + 1, h⟩ h0, outAdd_eq, Cert.KernelIdeal.Payload.pay2_apply]
      show (accAt m c n (Nat.lt_of_succ_lt h) : Vec Ideal S8x128 .f32) y + _ = _
      rw [accAt_apply c n (Nat.lt_of_succ_lt h) y, show (n + 1) / 50 = n / 50 from by omega,
        show (n + 1) % 50 = n % 50 + 1 from by omega]
      show _ = runTotal (fun s => tileAt m c (50 * (n / 50) + s)) (n % 50) + tileAt m c (50 * (n / 50) + (n % 50 + 1))
      rw [show 50 * (n / 50) + (n % 50 + 1) = n + 1 from by omega]
      unfold tileAt
      rw [dif_pos h]

/-! ## The result array -/

/-- A core's total: its fifty tile terms, added left to right from 0. -/
def coreTotal (c : Dev nD) (k : ℕ) : EReal := runTotal (fun s => tileAt m c (50 * k + s)) 49

/-- The result array the write-backs produce: the first core's total in rows 0–7, the second's in rows 8–15. -/
def resArr (c : Dev nD) : Buf (Elt Ideal) ((c : Thread nD τ).loc main_v1) :=
  fun (i : S16x128.Idx) => if (i 0).val < 8 then coreTotal m c 0 else coreTotal m c 1

/-- Each write-back (after positions 49 and 99) writes the block of that array it covers. -/
theorem flushed_eq (c : Dev nD) (t : Fin cfg0.N) (hf : (cfg0.win 3).flush t = true) :
    (dats m 0 c).flushed 3 t = ((cfg0.win 3).blk t).view.read (Elt Ideal) (resArr m c) := by
  have hN : cfg0.N = 100 := N_0
  have h49 : t.val % 50 = 49 := (flush0_3 t).mp hf
  show (cfg0.win 3).cut (grid0.coords t) ((dats m 0 c).after 3 t) = _
  rw [after_O]
  funext y
  rw [View.read_apply]
  show (accAt m c t.val t.isLt : Vec Ideal S8x128 .f32) y = resArr m c _
  rw [accAt_apply m c t.val t.isLt y, h49]
  have hrow : ((((cfg0.win 3).blk t).view.emb y : S16x128.Idx) 0).val = win0_3.index t 0 * 8 + 1 * (y 0).val := rfl
  have hy : (y 0).val < 8 := (y 0).isLt
  unfold resArr coreTotal
  dsimp only
  rw [hrow, (index_O t).1]
  have ht : t.val < 100 := by omega
  rcases (by omega : t.val / 50 = 0 ∨ t.val / 50 = 1) with h | h
  · rw [h, if_pos (by omega)]
  · rw [h, if_neg (by omega)]

/-- The result window is never cut: its block at a point is all 8 × 128 of it. -/
theorem xsize_O : ∀ t : Fin cfg0.N, win0_3.xsize (grid0.coords t) 0 = 8 ∧ win0_3.xsize (grid0.coords t) 1 = 128 :=
  (by decide +kernel : ∀ t : Fin grid0.N, win0_3.xsize (grid0.coords t) 0 = 8 ∧ win0_3.xsize (grid0.coords t) 1 = 128)

/-- The two positions after which the result buffer is written back: each core's last tile. -/
abbrev lastOfFirst : Fin cfg0.N := ⟨49, by decide⟩
abbrev lastOfSecond : Fin cfg0.N := ⟨99, by decide⟩

/-- Entry (0, 0) of the result array is the first core's total. -/
theorem res_first (c : Dev nD) :
    ((dats m 0 c).arrAt 3 cfg0.N : S16x128.Idx → EReal) (ix2 (0 : Fin 16) (0 : Fin 128)) = coreTotal m c 0 := by
  refine ((dats m 0 c).arrAt_apply_of_mem 3 (resArr m c) (flushed_eq m c) cfg0.N lastOfFirst _ (by show 49 < cfg0.N; decide)
    ((flush0_3 lastOfFirst).mpr (by show 49 % 50 = 49; rfl)) ?_).trans (if_pos (by decide))
  show (ix2 (0 : Fin 16) (0 : Fin 128) : S16x128.Idx) ∈ ((View.whole main_v1).slice (win0_3.rect lastOfFirst)).set
  rw [View.set_slice_whole, Rect.mem_set_unit]
  intro a
  match a with
  | ⟨0, _⟩ => show win0_3.index lastOfFirst 0 * win0_3.size 0 ≤ 0 ∧ 0 < win0_3.index lastOfFirst 0 * win0_3.size 0 + win0_3.xsize (grid0.coords lastOfFirst) 0
              rw [(index_O lastOfFirst).1, show win0_3.size 0 = 8 from rfl, (xsize_O lastOfFirst).1]
              show 49 / 50 * 8 ≤ 0 ∧ 0 < 49 / 50 * 8 + 8
              omega
  | ⟨1, _⟩ => show win0_3.index lastOfFirst 1 * win0_3.size 1 ≤ 0 ∧ 0 < win0_3.index lastOfFirst 1 * win0_3.size 1 + win0_3.xsize (grid0.coords lastOfFirst) 1
              rw [(index_O lastOfFirst).2, show win0_3.size 1 = 128 from rfl, (xsize_O lastOfFirst).2]
              omega

/-- Entry (8, 0) is the second core's. -/
theorem res_second (c : Dev nD) :
    ((dats m 0 c).arrAt 3 cfg0.N : S16x128.Idx → EReal) (ix2 (8 : Fin 16) (0 : Fin 128)) = coreTotal m c 1 := by
  refine ((dats m 0 c).arrAt_apply_of_mem 3 (resArr m c) (flushed_eq m c) cfg0.N lastOfSecond _ (by show 99 < cfg0.N; decide)
    ((flush0_3 lastOfSecond).mpr (by show 99 % 50 = 49; rfl)) ?_).trans (if_neg (by decide))
  show (ix2 (8 : Fin 16) (0 : Fin 128) : S16x128.Idx) ∈ ((View.whole main_v1).slice (win0_3.rect lastOfSecond)).set
  rw [View.set_slice_whole, Rect.mem_set_unit]
  intro a
  match a with
  | ⟨0, _⟩ => show win0_3.index lastOfSecond 0 * win0_3.size 0 ≤ 8 ∧ 8 < win0_3.index lastOfSecond 0 * win0_3.size 0 + win0_3.xsize (grid0.coords lastOfSecond) 0
              rw [(index_O lastOfSecond).1, show win0_3.size 0 = 8 from rfl, (xsize_O lastOfSecond).1]
              show 99 / 50 * 8 ≤ 8 ∧ 8 < 99 / 50 * 8 + 8
              omega
  | ⟨1, _⟩ => show win0_3.index lastOfSecond 1 * win0_3.size 1 ≤ 0 ∧ 0 < win0_3.index lastOfSecond 1 * win0_3.size 1 + win0_3.xsize (grid0.coords lastOfSecond) 1
              rw [(index_O lastOfSecond).2, show win0_3.size 1 = 128 from rfl, (xsize_O lastOfSecond).2]
              omega

/-- A core's total is the sum of its fifty tiles' shares of the data term. -/
theorem coreTotal_eq (c : Dev nD) (k : ℕ) :
    coreTotal m c k = ∑ s ∈ Finset.range 50, tileTotalN (argU m c) (argV m c) (argR m c) (50 * k + s) := by
  unfold coreTotal
  rw [runTotal_eq_sum]
  exact Finset.sum_congr rfl fun s _ => tileAt_eq m c _

/-- The two cores' totals together are the whole data term. -/
theorem totals_sum (c : Dev nD) : coreTotal m c 0 + coreTotal m c 1 = lossCore (argU m c) (argV m c) (argR m c) := by
  rw [coreTotal_eq, coreTotal_eq]
  have h := tiles_sum (argU m c) (argV m c) (argR m c)
  simpa only [Nat.mul_zero, Nat.zero_add, Nat.mul_one] using h

end Cert.KernelIdeal.Hand

end
-- ==== Proof.Wrap.lean ====
/- A row number in [−12000, 12000) wraps to a row of the table. -/
import proofs.«419446_j32796370272277_3_alg».proof.Proof.Spec

noncomputable section

open scoped BigOperators

namespace Cert.Spec

/-- For −12000 ≤ x < 12000 the wrapped word, read signed, lies in [0, 11999]. -/
theorem wrapRow_bounds (x : BitVec 32) (h : -12000 ≤ x.toInt ∧ x.toInt < 12000) :
    0 ≤ (wrapRow x).toInt ∧ (wrapRow x).toInt ≤ 11999 := by
  unfold wrapRow
  split
  · -- a negative x: x + 12000 lies in [0, 12000), far from the 32-bit wrap, so the signed reading of the word
    -- sum is the sum of the signed readings
    have h12 : (12000#32 : BitVec 32).toInt = 12000 := by decide
    rw [BitVec.toInt_add, h12]
    have hb : (x.toInt + 12000).bmod (2 ^ 32) = x.toInt + 12000 := by
      apply Int.bmod_eq_of_le <;> omega
    rw [hb]
    omega
  · -- a non-negative x is left alone
    omega

/-- So the clamp in `rowOf` does nothing there. -/
theorem rowOf_val (x : BitVec 32) (h : -12000 ≤ x.toInt ∧ x.toInt < 12000) :
    ((rowOf x).val : ℤ) = (wrapRow x).toInt := by
  have hb := wrapRow_bounds x h
  unfold rowOf
  simp only
  omega

end Cert.Spec

end
-- ==== Proof.Tail.lean ====
/- The host operations that follow the kernel's region, read as functions of the buffers they start from. -/
import proofs.«419446_j32796370272277_3_alg».proof.Proof.Gen.KernelIdeal.Launch
import proofs.«419446_j32796370272277_3_alg».proof.Proof.Spec
import proofs.«419446_j32796370272277_3_alg».proof.Proof.Wrap
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.Tail

open Idealize.ShloMosaic Idealize.ShloMosaic.ValueIdx Cert.KernelIdeal Cert.KernelIdeal.Gen

/-- The stretches of host operations after the region, in order. -/
abbrev tailOps : List (List (HloOp τ sig (Elt Ideal))) := [hostOps1, hostOps1_1, hostOps1_2, hostOps1_3, hostOps1_4]

/-- The kernel's result array among buffer contents `W`, at its literal type. -/
abbrev outArr (W : Valuation τ sig (Elt Ideal)) : S16x128.Idx → EReal := W (Proc.devRef .tc main_v1)

/-- The (o, 0) entry of a 16 × 128 array, cut out as a 1 × 1 slice and reshaped to a scalar, is that entry. -/
theorem slice_reshape_apply (X : S16x128.Idx → EReal) (o : Nat) (ho : o < 16) (h : S16x128.Slices ![o, 0] S1x1)
    (j : S_.Idx) :
    shapeCast S_ (extractStridedSlice S1x1 ![o, 0] X h) shapeCasts_S1x1_S_ j = X (ix2 (⟨o, ho⟩ : Fin 16) (0 : Fin 128)) := by
  rw [shapeCast_apply _ shapeCasts_S1x1_S_ j (ix2 (0 : Fin 1) (0 : Fin 1))
    (by rw [Shape.rowMajor_val_two]; exact (Shape.rowMajorPi_zero _ _).symm)]
  exact extractStridedSlice_apply _ _ _ _ _ (fun ax => by match ax with | ⟨0, _⟩ => rfl | ⟨1, _⟩ => rfl)

/-- The host's sum of squares of a table over both axes, scaled: the weight-decay term. -/
theorem reg_apply (X : S12000x5.Idx → EReal) (j : S_.Idx) :
    Ideal.ofBits .f32 0x3C23D70A#32
        * Host.reduceAdd (F := Ideal) (mulf X X : FVec Ideal S12000x5 .f32) (constant (F := Ideal) S_ .f32 0x00000000#32) reducesTo_S12000x5_S_d0_1 h_S_ j
      = Cert.Spec.regTerm X := by
  unfold Cert.Spec.regTerm Host.reduceAdd
  rw [Ideal.hostReduceAdd_def, Ideal.hostReduceAdd_total _ (fun b => b.elim0), constant_apply, Ideal.ofBits_zero_f32]
  rfl

/-- From any buffer contents `W`: the loss is the two cores' accumulated totals (entries (0, 0) and (8, 0) of the
    kernel's result array) added, plus the two weight-decay terms. -/
theorem loss_after (W : Valuation τ sig (Elt Ideal)) :
    StableHlo.after tailOps.flatten W (Proc.devRef .tc main_v14)
      = fun _ => (((outArr W (ix2 (0 : Fin 16) (0 : Fin 128)) + outArr W (ix2 (8 : Fin 16) (0 : Fin 128)))
          + Cert.Spec.regTerm (W (Proc.devRef .tc main_arg0))) + Cert.Spec.regTerm (W (Proc.devRef .tc main_arg1)) : EReal) := by
  simp only [tailOps, hostOps1, hostOps1_1, hostOps1_2, hostOps1_3, hostOps1_4, List.flatten_cons, List.flatten_nil, List.append_nil, List.cons_append, List.nil_append]
  after_results
  funext j
  show ((shapeCast S_ (extractStridedSlice S1x1 ![0, 0] (outArr W) slices_S16x128_S1x1_0_0) shapeCasts_S1x1_S_ j
        + shapeCast S_ (extractStridedSlice S1x1 ![8, 0] (outArr W) slices_S16x128_S1x1_8_0) shapeCasts_S1x1_S_ j)
      + Ideal.ofBits .f32 0x3C23D70A#32
        * Host.reduceAdd (F := Ideal) (mulf (W (Proc.devRef .tc main_arg0)) (W (Proc.devRef .tc main_arg0)) : FVec Ideal S12000x5 .f32) (constant (F := Ideal) S_ .f32 0x00000000#32) reducesTo_S12000x5_S_d0_1 h_S_ j)
      + Ideal.ofBits .f32 0x3C23D70A#32
        * Host.reduceAdd (F := Ideal) (mulf (W (Proc.devRef .tc main_arg1)) (W (Proc.devRef .tc main_arg1)) : FVec Ideal S12000x5 .f32) (constant (F := Ideal) S_ .f32 0x00000000#32) reducesTo_S12000x5_S_d0_1 h_S_ j = _
  rw [slice_reshape_apply _ 0 (by omega), slice_reshape_apply _ 8 (by omega), reg_apply, reg_apply]
  rfl

/-- The row numbers as the gather reads them: a negative one gets 12000 added, then a unit column axis. -/
def wrapped (u : S1000000.Idx → BitVec 32) : IVec S1000000x1 32 :=
  broadcastInDim S1000000x1 ![0] bcast_S1000000_S1000000x1_0
    (select (cmpi .slt u (broadcastInDim S1000000 ![] bcast_S_S1000000 (constantI S_ 32 0#32)))
      (addi u (broadcastInDim S1000000 ![] bcast_S_S1000000 (constantI S_ 32 12000#32))) u)

/-- The mask "the start index lies in [0, 11999]", reduced with "and" over the unit column axis. -/
def inTable (w : IVec S1000000x1 32) : IVec S1000000 1 :=
  Host.reduce IntOp.andi
    (andi (cmpi .sge w (broadcastInDim S1000000x1 ![] bcast_S_S1000000x1 (constantI S_ 32 0#32)))
      (cmpi .sle w (broadcastInDim S1000000x1 ![0, 1] bcast_S1x1_S1000000x1_0_1
        (broadcastInDim S1x1 ![1] bcast_S1_S1x1_1 (constantI S1 32 11999#32)))))
    (constantI S_ 1 1#1) reducesTo_S1000000x1_S1000000_d1 h_S_

/-- Whole rows gathered at start indices `w`, and a fill value wherever the mask `m` is not 1. -/
def pickRows (X : S12000x5.Idx → EReal) (w : IVec S1000000x1 32) (m : IVec S1000000 1) : S1000000x5.Idx → EReal :=
  select (broadcastInDim S1000000x5 ![0] bcast_S1000000_S1000000x5_0 m)
    (Host.gather gather_S12000x5_S1000000x1_S1000000x5_1_0_n_n_0_1_15 X w)
    (broadcastInDim S1000000x5 ![] bcast_S_S1000000x5 (constant (F := Ideal) S_ .f32 0x7FC00000#32))

/-- Whole rows of a table named by row numbers: gathered at the wrapped numbers, and a fill value wherever the
    wrapped number falls outside [0, 11999]. -/
def takeRows (X : S12000x5.Idx → EReal) (u : S1000000.Idx → BitVec 32) : S1000000x5.Idx → EReal :=
  pickRows X (wrapped u) (inTable (wrapped u))

/-- The select on "negative" is the wrap. -/
theorem select_wrap (x : BitVec 32) :
    Scalar.select (IntOp.cmpi .slt x 0#32) (IntOp.addi x 12000#32) x = Cert.Spec.wrapRow x := by
  have z : (0#32 : BitVec 32).toInt = 0 := by decide
  unfold Cert.Spec.wrapRow
  by_cases h : x.toInt < 0
  · have e : IntOp.cmpi .slt x 0#32 = 1#1 := IntOp.cmpi_slt.mpr (by rw [z]; exact h)
    rw [e, select_one, if_pos h]; rfl
  · have e : IntOp.cmpi .slt x 0#32 = 0#1 :=
      eq_zero_of_ne_one (fun e => h (by have := IntOp.cmpi_slt.mp e; rwa [z] at this))
    rw [e, select_zero, if_neg h]

/-- The wrapped numbers at an index. -/
theorem wrapped_apply (u : S1000000.Idx → BitVec 32) (n : Fin 1000000) (c : Fin 1) :
    wrapped u (ix2 n c) = Cert.Spec.wrapRow (u (ix1 n)) := by
  unfold wrapped
  rw [broadcastInDim_apply _ _ _ (ix2 n c) (ix1 n) (fun a => by match a with | ⟨0, _⟩ => rfl)]
  exact select_wrap _

/-- A left fold by "and" from 1 over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    have e : IntOp.andi 1#1 1#1 = 1#1 := by decide
    rw [List.foldl_cons, hf a, e]; exact foldl_andi_one f hf l

/-- For row numbers that stay inside the table the mask is 1 at every position. -/
theorem mask_one (u : S1000000.Idx → BitVec 32) (hu : Cert.Spec.InRange u) (n : S1000000.Idx) :
    inTable (wrapped u) n = 1#1 := by
  unfold inTable
  rw [Host.reduce_eq_foldl]
  refine foldl_andi_one _ (fun i => ?_) _
  obtain ⟨a, c, rfl⟩ : ∃ a c, i = ix2 a c := ⟨i 0, i 1, eq_ix2 i⟩
  show IntOp.andi (IntOp.cmpi .sge (wrapped u (ix2 a c)) 0#32) (IntOp.cmpi .sle (wrapped u (ix2 a c)) 11999#32) = 1#1
  rw [wrapped_apply]
  have hb := Cert.Spec.wrapRow_bounds (u (ix1 a)) (hu (ix1 a))
  have z : (0#32 : BitVec 32).toInt = 0 := by decide
  have t : (11999#32 : BitVec 32).toInt = 11999 := by decide
  exact IntOp.andi_eq_one.mpr ⟨IntOp.cmpi_sge.mpr (by rw [z]; exact hb.1), IntOp.cmpi_sle.mpr (by rw [t]; exact hb.2)⟩

/-- The gather of whole rows read at (n, k): the table at the row the n-th start index names, read signed and
    clamped into the table, and column k. -/
theorem gather_rows_apply (X : S12000x5.Idx → EReal) (idx : IVec S1000000x1 32) (n : Fin 1000000) (k : Fin 5) :
    Host.gather gather_S12000x5_S1000000x1_S1000000x5_1_0_n_n_0_1_15 X idx (ix2 n k)
      = X (ix2 (⟨min (idx (ix2 n (0 : Fin 1))).toInt.toNat 11999, by omega⟩ : Fin 12000) k) := by
  have h0 : gather_S12000x5_S1000000x1_S1000000x5_1_0_n_n_0_1_15.start (ix2 n k) idx (0 : Fin 2)
      + gather_S12000x5_S1000000x1_S1000000x5_1_0_n_n_0_1_15.batchCoord (ix2 n k) (0 : Fin 2)
      + gather_S12000x5_S1000000x1_S1000000x5_1_0_n_n_0_1_15.offCoord (ix2 n k) (0 : Fin 2)
        = min (idx (ix2 n (0 : Fin 1))).toInt.toNat 11999 := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S12000x5_S1000000x1_S1000000x5_1_0_n_n_0_1_15.startIndexMap from List.mem_singleton.mpr rfl)]
    have hsi : gather_S12000x5_S1000000x1_S1000000x5_1_0_n_n_0_1_15.siIdx (ix2 n k)
        ⟨List.idxOf (0 : Fin 2) gather_S12000x5_S1000000x1_S1000000x5_1_0_n_n_0_1_15.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have h1 : gather_S12000x5_S1000000x1_S1000000x5_1_0_n_n_0_1_15.start (ix2 n k) idx (1 : Fin 2)
      + gather_S12000x5_S1000000x1_S1000000x5_1_0_n_n_0_1_15.batchCoord (ix2 n k) (1 : Fin 2)
      + gather_S12000x5_S1000000x1_S1000000x5_1_0_n_n_0_1_15.offCoord (ix2 n k) (1 : Fin 2) = k.val := by
    rw [GatherDims.batchCoord_eq_zero _ _ _ List.not_mem_nil]
    unfold GatherDims.start GatherDims.offCoord
    rw [dif_neg (by decide), dif_pos (by decide)]
    simp only [Nat.add_zero, Nat.zero_add]
    rfl
  unfold Host.gather
  congr 1
  funext a
  refine Fin.ext ?_
  match a with
  | ⟨0, _⟩ => exact h0
  | ⟨1, _⟩ => exact h1

/-- For row numbers that stay inside the table the rows taken are the table's own rows: the fill value never shows. -/
theorem takeRows_apply (X : S12000x5.Idx → EReal) (u : S1000000.Idx → BitVec 32) (hu : Cert.Spec.InRange u)
    (n : Fin 1000000) (k : Fin 5) :
    takeRows X u (ix2 n k) = X (ix2 (Cert.Spec.rowOf (u (ix1 n))) k) := by
  unfold takeRows pickRows
  rw [select_apply, broadcastInDim_apply _ _ _ (ix2 n k) (ix1 n) (fun a => by match a with | ⟨0, _⟩ => rfl),
    mask_one u hu, select_one, gather_rows_apply]
  refine congrArg (fun r : Fin 12000 => X (ix2 r k)) (Fin.ext ?_)
  show min (wrapped u (ix2 n (0 : Fin 1))).toInt.toNat 11999 = min (Cert.Spec.wrapRow (u (ix1 n))).toInt.toNat 11999
  rw [wrapped_apply]

/-- The first four columns of the two families of rows, multiplied and added from 0: the predictions. -/
theorem preds_apply (U V : S12000x5.Idx → EReal) (u v : S1000000.Idx → BitVec 32)
    (hu : Cert.Spec.InRange u) (hv : Cert.Spec.InRange v) (a : Fin 1000000) :
    Host.reduceAdd (F := Ideal)
        (mulf (extractStridedSlice S1000000x4 ![0, 0] (takeRows U u) slices_S1000000x5_S1000000x4_0_0)
          (extractStridedSlice S1000000x4 ![0, 0] (takeRows V v) slices_S1000000x5_S1000000x4_0_0) : FVec Ideal S1000000x4 .f32)
        (constant (F := Ideal) S_ .f32 0x00000000#32) reducesTo_S1000000x4_S1000000_d1 h_S_ (ix1 a)
      = Cert.Spec.predsG U V u v a := by
  have h : S1000000x4.Reduces [1] S1000000 := by decide
  unfold Host.reduceAdd Cert.Spec.predsG
  rw [Ideal.hostReduceAdd_def, Ideal.hostReduceAdd_single _ h, constant_apply, Ideal.ofBits_zero_f32, zero_add]
  show ∑ k : Fin 4, _ = ∑ k : Fin 4, _
  refine Finset.sum_congr rfl (fun k _ => ?_)
  have e : h.lift (ix1 a) k = ix2 a k := by
    funext c; refine Fin.ext ?_
    match c with
    | ⟨0, _⟩ => rfl
    | ⟨1, _⟩ => rfl
  rw [e, mulf_apply, slice2_axis1_apply 0 _ _ a k (Fin.castSucc k) (by simp),
    slice2_axis1_apply 0 _ _ a k (Fin.castSucc k) (by simp), takeRows_apply U u hu, takeRows_apply V v hv]

/-- The first call of the row-taking function, in three stretches: the wrap of the row numbers … -/
abbrev wrapOps0 : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1000000, .i32⟩) (broadcastInDim S1000000 ![] bcast_S_S1000000),
    StableHlo.TRef.binary (.of main_arg3 : StableHlo.TRef sig ⟨S1000000, .i32⟩) (.of main_call0_v0 : StableHlo.TRef sig ⟨S1000000, .i32⟩) (.of main_call0_v1 : StableHlo.TRef sig ⟨S1000000, .i1⟩) (cmpi .slt),
    StableHlo.TRef.nullary (.of main_call0_c_0 : StableHlo.TRef sig ⟨S_, .i32⟩) (constantI S_ 32 12000#32),
    StableHlo.TRef.unary (.of main_call0_c_0 : StableHlo.TRef sig ⟨S_, .i32⟩) (.of main_call0_v2 : StableHlo.TRef sig ⟨S1000000, .i32⟩) (broadcastInDim S1000000 ![] bcast_S_S1000000),
    StableHlo.TRef.binary (.of main_arg3 : StableHlo.TRef sig ⟨S1000000, .i32⟩) (.of main_call0_v2 : StableHlo.TRef sig ⟨S1000000, .i32⟩) (.of main_call0_v3 : StableHlo.TRef sig ⟨S1000000, .i32⟩) addi,
    StableHlo.TRef.ternary (.of main_call0_v1 : StableHlo.TRef sig ⟨S1000000, .i1⟩) (.of main_call0_v3 : StableHlo.TRef sig ⟨S1000000, .i32⟩) (.of main_arg3 : StableHlo.TRef sig ⟨S1000000, .i32⟩) (.of main_call0_v4 : StableHlo.TRef sig ⟨S1000000, .i32⟩) select,
    StableHlo.TRef.unary main_call0_call0.v0 (.of main_call0_v5 : StableHlo.TRef sig ⟨S1000000x1, .i32⟩) (broadcastInDim S1000000x1 ![0] bcast_S1000000_S1000000x1_0) ]
/-- … the mask … -/
abbrev maskOps0 : List (HloOp τ sig (Elt Ideal)) :=
  [ StableHlo.TRef.nullary (.of main_call0_c_1 : StableHlo.TRef sig ⟨S1, .i32⟩) (constantI S1 32 11999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1000000x1, .i32⟩) (broadcastInDim S1000000x1 ![] bcast_S_S1000000x1),
    StableHlo.TRef.binary (.of main_call0_v5 : StableHlo.TRef sig ⟨S1000000x1, .i32⟩) (.of main_call0_v6 : StableHlo.TRef sig ⟨S1000000x1, .i32⟩) (.of main_call0_v7 : StableHlo.TRef sig ⟨S1000000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1000000x1, .i32⟩) (broadcastInDim S1000000x1 ![0, 1] bcast_S1x1_S1000000x1_0_1),
    StableHlo.TRef.binary (.of main_call0_v5 : StableHlo.TRef sig ⟨S1000000x1, .i32⟩) (.of main_call0_v9 : StableHlo.TRef sig ⟨S1000000x1, .i32⟩) (.of main_call0_v10 : StableHlo.TRef sig ⟨S1000000x1, .i1⟩) (cmpi .sle),
    StableHlo.TRef.binary (.of main_call0_v7 : StableHlo.TRef sig ⟨S1000000x1, .i1⟩) (.of main_call0_v10 : StableHlo.TRef sig ⟨S1000000x1, .i1⟩) (.of main_call0_v11 : StableHlo.TRef sig ⟨S1000000x1, .i1⟩) andi,
    StableHlo.TRef.nullary (.of main_call0_c_3 : StableHlo.TRef sig ⟨S_, .i1⟩) (constantI S_ 1 1#1),
    StableHlo.TRef.binary (.of main_call0_v11 : StableHlo.TRef sig ⟨S1000000x1, .i1⟩) (.of main_call0_c_3 : StableHlo.TRef sig ⟨S_, .i1⟩) (.of main_call0_v12 : StableHlo.TRef sig ⟨S1000000, .i1⟩) (fun x v => Host.reduce IntOp.andi x v reducesTo_S1000000x1_S1000000_d1 h_S_) ]
/-- … and the gather with the select. -/
abbrev pickOps0 : List (HloOp τ sig (Elt Ideal)) :=
  [ StableHlo.TRef.binary (.of main_arg0 : StableHlo.TRef sig ⟨S12000x5, .f32⟩) (.of main_call0_v5 : StableHlo.TRef sig ⟨S1000000x1, .i32⟩) (.of main_call0_v13 : StableHlo.TRef sig ⟨S1000000x5, .f32⟩) (fun x i => Host.gather gather_S12000x5_S1000000x1_S1000000x5_1_0_n_n_0_1_15 x i),
    StableHlo.TRef.unary (.of main_call0_v12 : StableHlo.TRef sig ⟨S1000000, .i1⟩) (.of main_call0_v14 : StableHlo.TRef sig ⟨S1000000x5, .i1⟩) (broadcastInDim S1000000x5 ![0] bcast_S1000000_S1000000x5_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S1000000x5, .f32⟩) (broadcastInDim S1000000x5 ![] bcast_S_S1000000x5),
    StableHlo.TRef.ternary (.of main_call0_v14 : StableHlo.TRef sig ⟨S1000000x5, .i1⟩) (.of main_call0_v13 : StableHlo.TRef sig ⟨S1000000x5, .f32⟩) (.of main_call0_v15 : StableHlo.TRef sig ⟨S1000000x5, .f32⟩) (.of main_v15 : StableHlo.TRef sig ⟨S1000000x5, .f32⟩) select ]
theorem call0_split : (hostOps1_1 : List (HloOp τ sig (Elt Ideal))) = wrapOps0 ++ (maskOps0 ++ pickOps0) := rfl

theorem wrapOps0_idx (W : Valuation τ sig (Elt Ideal)) :
    StableHlo.after wrapOps0 W (Proc.devRef .tc main_call0_v5) = wrapped (W (Proc.devRef .tc main_arg3)) := by
  simp only [wrapOps0]
  after_results_simp
  simp only [StableHlo.TRef.ofBuf, StableHlo.TRef.toBuf, cast_eq]
  rfl
theorem wrapOps0_tab (W : Valuation τ sig (Elt Ideal)) :
    StableHlo.after wrapOps0 W (Proc.devRef .tc main_arg0) = W (Proc.devRef .tc main_arg0) := by
  simp only [wrapOps0]
  after_results_simp
theorem maskOps0_mask (W : Valuation τ sig (Elt Ideal)) :
    StableHlo.after maskOps0 W (Proc.devRef .tc main_call0_v12) = inTable (W (Proc.devRef .tc main_call0_v5)) := by
  simp only [maskOps0]
  after_results_simp
  simp only [StableHlo.TRef.ofBuf, StableHlo.TRef.toBuf, cast_eq]
  rfl
theorem maskOps0_idx (W : Valuation τ sig (Elt Ideal)) :
    StableHlo.after maskOps0 W (Proc.devRef .tc main_call0_v5) = W (Proc.devRef .tc main_call0_v5) := by
  simp only [maskOps0]
  after_results_simp
theorem maskOps0_tab (W : Valuation τ sig (Elt Ideal)) :
    StableHlo.after maskOps0 W (Proc.devRef .tc main_arg0) = W (Proc.devRef .tc main_arg0) := by
  simp only [maskOps0]
  after_results_simp
theorem pickOps0_rows (W : Valuation τ sig (Elt Ideal)) :
    StableHlo.after pickOps0 W (Proc.devRef .tc main_v15)
      = pickRows (W (Proc.devRef .tc main_arg0)) (W (Proc.devRef .tc main_call0_v5)) (W (Proc.devRef .tc main_call0_v12)) := by
  simp only [pickOps0]
  after_results_simp
  simp only [StableHlo.TRef.ofBuf, StableHlo.TRef.toBuf, cast_eq]
  rfl

/-- The first call, from any buffer contents: rows of the first table at the first list of row numbers. -/
theorem take0_after (W : Valuation τ sig (Elt Ideal)) :
    StableHlo.after hostOps1_1 W (Proc.devRef .tc main_v15)
      = takeRows (W (Proc.devRef .tc main_arg0)) (W (Proc.devRef .tc main_arg3)) := by
  rw [call0_split, StableHlo.after_append, StableHlo.after_append, pickOps0_rows, maskOps0_mask, maskOps0_idx,
    maskOps0_tab, wrapOps0_idx, wrapOps0_tab]
  rfl

/-- The second call of the row-taking function, in three stretches: the wrap of the row numbers … -/
abbrev wrapOps1 : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1000000, .i32⟩) (broadcastInDim S1000000 ![] bcast_S_S1000000),
    StableHlo.TRef.binary (.of main_arg4 : StableHlo.TRef sig ⟨S1000000, .i32⟩) (.of main_call1_v0 : StableHlo.TRef sig ⟨S1000000, .i32⟩) (.of main_call1_v1 : StableHlo.TRef sig ⟨S1000000, .i1⟩) (cmpi .slt),
    StableHlo.TRef.nullary (.of main_call1_c_0 : StableHlo.TRef sig ⟨S_, .i32⟩) (constantI S_ 32 12000#32),
    StableHlo.TRef.unary (.of main_call1_c_0 : StableHlo.TRef sig ⟨S_, .i32⟩) (.of main_call1_v2 : StableHlo.TRef sig ⟨S1000000, .i32⟩) (broadcastInDim S1000000 ![] bcast_S_S1000000),
    StableHlo.TRef.binary (.of main_arg4 : StableHlo.TRef sig ⟨S1000000, .i32⟩) (.of main_call1_v2 : StableHlo.TRef sig ⟨S1000000, .i32⟩) (.of main_call1_v3 : StableHlo.TRef sig ⟨S1000000, .i32⟩) addi,
    StableHlo.TRef.ternary (.of main_call1_v1 : StableHlo.TRef sig ⟨S1000000, .i1⟩) (.of main_call1_v3 : StableHlo.TRef sig ⟨S1000000, .i32⟩) (.of main_arg4 : StableHlo.TRef sig ⟨S1000000, .i32⟩) (.of main_call1_v4 : StableHlo.TRef sig ⟨S1000000, .i32⟩) select,
    StableHlo.TRef.unary main_call1_call0.v0 (.of main_call1_v5 : StableHlo.TRef sig ⟨S1000000x1, .i32⟩) (broadcastInDim S1000000x1 ![0] bcast_S1000000_S1000000x1_0) ]
/-- … the mask … -/
abbrev maskOps1 : List (HloOp τ sig (Elt Ideal)) :=
  [ StableHlo.TRef.nullary (.of main_call1_c_1 : StableHlo.TRef sig ⟨S1, .i32⟩) (constantI S1 32 11999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1000000x1, .i32⟩) (broadcastInDim S1000000x1 ![] bcast_S_S1000000x1),
    StableHlo.TRef.binary (.of main_call1_v5 : StableHlo.TRef sig ⟨S1000000x1, .i32⟩) (.of main_call1_v6 : StableHlo.TRef sig ⟨S1000000x1, .i32⟩) (.of main_call1_v7 : StableHlo.TRef sig ⟨S1000000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1000000x1, .i32⟩) (broadcastInDim S1000000x1 ![0, 1] bcast_S1x1_S1000000x1_0_1),
    StableHlo.TRef.binary (.of main_call1_v5 : StableHlo.TRef sig ⟨S1000000x1, .i32⟩) (.of main_call1_v9 : StableHlo.TRef sig ⟨S1000000x1, .i32⟩) (.of main_call1_v10 : StableHlo.TRef sig ⟨S1000000x1, .i1⟩) (cmpi .sle),
    StableHlo.TRef.binary (.of main_call1_v7 : StableHlo.TRef sig ⟨S1000000x1, .i1⟩) (.of main_call1_v10 : StableHlo.TRef sig ⟨S1000000x1, .i1⟩) (.of main_call1_v11 : StableHlo.TRef sig ⟨S1000000x1, .i1⟩) andi,
    StableHlo.TRef.nullary (.of main_call1_c_3 : StableHlo.TRef sig ⟨S_, .i1⟩) (constantI S_ 1 1#1),
    StableHlo.TRef.binary (.of main_call1_v11 : StableHlo.TRef sig ⟨S1000000x1, .i1⟩) (.of main_call1_c_3 : StableHlo.TRef sig ⟨S_, .i1⟩) (.of main_call1_v12 : StableHlo.TRef sig ⟨S1000000, .i1⟩) (fun x v => Host.reduce IntOp.andi x v reducesTo_S1000000x1_S1000000_d1 h_S_) ]
/-- … and the gather with the select. -/
abbrev pickOps1 : List (HloOp τ sig (Elt Ideal)) :=
  [ StableHlo.TRef.binary (.of main_arg1 : StableHlo.TRef sig ⟨S12000x5, .f32⟩) (.of main_call1_v5 : StableHlo.TRef sig ⟨S1000000x1, .i32⟩) (.of main_call1_v13 : StableHlo.TRef sig ⟨S1000000x5, .f32⟩) (fun x i => Host.gather gather_S12000x5_S1000000x1_S1000000x5_1_0_n_n_0_1_15 x i),
    StableHlo.TRef.unary (.of main_call1_v12 : StableHlo.TRef sig ⟨S1000000, .i1⟩) (.of main_call1_v14 : StableHlo.TRef sig ⟨S1000000x5, .i1⟩) (broadcastInDim S1000000x5 ![0] bcast_S1000000_S1000000x5_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S1000000x5, .f32⟩) (broadcastInDim S1000000x5 ![] bcast_S_S1000000x5),
    StableHlo.TRef.ternary (.of main_call1_v14 : StableHlo.TRef sig ⟨S1000000x5, .i1⟩) (.of main_call1_v13 : StableHlo.TRef sig ⟨S1000000x5, .f32⟩) (.of main_call1_v15 : StableHlo.TRef sig ⟨S1000000x5, .f32⟩) (.of main_v17 : StableHlo.TRef sig ⟨S1000000x5, .f32⟩) select ]
theorem call1_split : (hostOps1_3 : List (HloOp τ sig (Elt Ideal))) = wrapOps1 ++ (maskOps1 ++ pickOps1) := rfl

theorem wrapOps1_idx (W : Valuation τ sig (Elt Ideal)) :
    StableHlo.after wrapOps1 W (Proc.devRef .tc main_call1_v5) = wrapped (W (Proc.devRef .tc main_arg4)) := by
  simp only [wrapOps1]
  after_results_simp
  simp only [StableHlo.TRef.ofBuf, StableHlo.TRef.toBuf, cast_eq]
  rfl
theorem wrapOps1_tab (W : Valuation τ sig (Elt Ideal)) :
    StableHlo.after wrapOps1 W (Proc.devRef .tc main_arg1) = W (Proc.devRef .tc main_arg1) := by
  simp only [wrapOps1]
  after_results_simp
theorem maskOps1_mask (W : Valuation τ sig (Elt Ideal)) :
    StableHlo.after maskOps1 W (Proc.devRef .tc main_call1_v12) = inTable (W (Proc.devRef .tc main_call1_v5)) := by
  simp only [maskOps1]
  after_results_simp
  simp only [StableHlo.TRef.ofBuf, StableHlo.TRef.toBuf, cast_eq]
  rfl
theorem maskOps1_idx (W : Valuation τ sig (Elt Ideal)) :
    StableHlo.after maskOps1 W (Proc.devRef .tc main_call1_v5) = W (Proc.devRef .tc main_call1_v5) := by
  simp only [maskOps1]
  after_results_simp
theorem maskOps1_tab (W : Valuation τ sig (Elt Ideal)) :
    StableHlo.after maskOps1 W (Proc.devRef .tc main_arg1) = W (Proc.devRef .tc main_arg1) := by
  simp only [maskOps1]
  after_results_simp
theorem pickOps1_rows (W : Valuation τ sig (Elt Ideal)) :
    StableHlo.after pickOps1 W (Proc.devRef .tc main_v17)
      = pickRows (W (Proc.devRef .tc main_arg1)) (W (Proc.devRef .tc main_call1_v5)) (W (Proc.devRef .tc main_call1_v12)) := by
  simp only [pickOps1]
  after_results_simp
  simp only [StableHlo.TRef.ofBuf, StableHlo.TRef.toBuf, cast_eq]
  rfl

/-- The second call, from any buffer contents: rows of the second table at the second list of row numbers. -/
theorem take1_after (W : Valuation τ sig (Elt Ideal)) :
    StableHlo.after hostOps1_3 W (Proc.devRef .tc main_v17)
      = takeRows (W (Proc.devRef .tc main_arg1)) (W (Proc.devRef .tc main_arg4)) := by
  rw [call1_split, StableHlo.after_append, StableHlo.after_append, pickOps1_rows, maskOps1_mask, maskOps1_idx,
    maskOps1_tab, wrapOps1_idx, wrapOps1_tab]
  rfl

/-- What the stretches before, between and after the two calls leave or write, from any buffer contents. -/
theorem ops1_tab0 (W : Valuation τ sig (Elt Ideal)) :
    StableHlo.after hostOps1 W (Proc.devRef .tc main_arg0) = W (Proc.devRef .tc main_arg0) := by
  simp only [hostOps1]
  after_results_simp
theorem ops1_tab1 (W : Valuation τ sig (Elt Ideal)) :
    StableHlo.after hostOps1 W (Proc.devRef .tc main_arg1) = W (Proc.devRef .tc main_arg1) := by
  simp only [hostOps1]
  after_results_simp
theorem ops1_rows0 (W : Valuation τ sig (Elt Ideal)) :
    StableHlo.after hostOps1 W (Proc.devRef .tc main_arg3) = W (Proc.devRef .tc main_arg3) := by
  simp only [hostOps1]
  after_results_simp
theorem ops1_rows1 (W : Valuation τ sig (Elt Ideal)) :
    StableHlo.after hostOps1 W (Proc.devRef .tc main_arg4) = W (Proc.devRef .tc main_arg4) := by
  simp only [hostOps1]
  after_results_simp
theorem call0_tab1 (W : Valuation τ sig (Elt Ideal)) :
    StableHlo.after hostOps1_1 W (Proc.devRef .tc main_arg1) = W (Proc.devRef .tc main_arg1) := by
  simp only [hostOps1_1]
  after_results_simp
theorem call0_rows1 (W : Valuation τ sig (Elt Ideal)) :
    StableHlo.after hostOps1_1 W (Proc.devRef .tc main_arg4) = W (Proc.devRef .tc main_arg4) := by
  simp only [hostOps1_1]
  after_results_simp
theorem ops2_cut (W : Valuation τ sig (Elt Ideal)) :
    StableHlo.after hostOps1_2 W (Proc.devRef .tc main_v16)
      = extractStridedSlice S1000000x4 ![0, 0] (W (Proc.devRef .tc main_v15)) slices_S1000000x5_S1000000x4_0_0 := by
  simp only [hostOps1_2]
  after_results_simp
theorem ops2_tab1 (W : Valuation τ sig (Elt Ideal)) :
    StableHlo.after hostOps1_2 W (Proc.devRef .tc main_arg1) = W (Proc.devRef .tc main_arg1) := by
  simp only [hostOps1_2]
  after_results_simp
theorem ops2_rows1 (W : Valuation τ sig (Elt Ideal)) :
    StableHlo.after hostOps1_2 W (Proc.devRef .tc main_arg4) = W (Proc.devRef .tc main_arg4) := by
  simp only [hostOps1_2]
  after_results_simp
theorem call1_cut (W : Valuation τ sig (Elt Ideal)) :
    StableHlo.after hostOps1_3 W (Proc.devRef .tc main_v16) = W (Proc.devRef .tc main_v16) := by
  simp only [hostOps1_3]
  after_results_simp
theorem ops4_sum (W : Valuation τ sig (Elt Ideal)) :
    StableHlo.after hostOps1_4 W (Proc.devRef .tc main_v20)
      = Host.reduceAdd (F := Ideal)
          (mulf (W (Proc.devRef .tc main_v16))
            (extractStridedSlice S1000000x4 ![0, 0] (W (Proc.devRef .tc main_v17)) slices_S1000000x5_S1000000x4_0_0) : FVec Ideal S1000000x4 .f32)
          (constant (F := Ideal) S_ .f32 0x00000000#32) reducesTo_S1000000x4_S1000000_d1 h_S_ := by
  simp only [hostOps1_4]
  after_results_simp

/-- From any buffer contents `W` whose row numbers stay inside the tables: the predictions. -/
theorem preds_after (W : Valuation τ sig (Elt Ideal))
    (hu : Cert.Spec.InRange (W (Proc.devRef .tc main_arg3))) (hv : Cert.Spec.InRange (W (Proc.devRef .tc main_arg4))) :
    StableHlo.after tailOps.flatten W (Proc.devRef .tc main_v20)
      = fun n => (Cert.Spec.predsG (W (Proc.devRef .tc main_arg0)) (W (Proc.devRef .tc main_arg1))
          (W (Proc.devRef .tc main_arg3)) (W (Proc.devRef .tc main_arg4)) (n 0) : EReal) := by
  have e : tailOps.flatten = hostOps1 ++ (hostOps1_1 ++ (hostOps1_2 ++ (hostOps1_3 ++ hostOps1_4))) := by
    simp only [tailOps, List.flatten_cons, List.flatten_nil, List.append_nil]
  rw [e, StableHlo.after_append, StableHlo.after_append, StableHlo.after_append, StableHlo.after_append,
    ops4_sum, call1_cut, take1_after, ops2_cut, ops2_tab1, ops2_rows1, take0_after, call0_tab1, call0_rows1,
    ops1_tab0, ops1_tab1, ops1_rows0, ops1_rows1]
  funext n
  obtain ⟨a, rfl⟩ : ∃ a, n = ix1 a := ⟨n 0, eq_ix1 n⟩
  exact preds_apply (W (Proc.devRef .tc main_arg0)) (W (Proc.devRef .tc main_arg1))
    (W (Proc.devRef .tc main_arg3)) (W (Proc.devRef .tc main_arg4)) hu hv a

end Cert.KernelIdeal.Tail

end
-- ==== Proof.KI.Final.lean ====
/- The idealized kernel's run, read at its two results. The later host operations start from the buffers as the
   region leaves them: its four arrays at what the write-backs produced (the inputs unchanged), every other buffer as
   the region found it. Read from there, the first result is the two cores' totals added, plus the two weight-decay
   terms: the loss; the second, for row numbers inside the tables, the predictions. -/
import proofs.«419446_j32796370272277_3_alg».proof.Proof.KI.Value
import proofs.«419446_j32796370272277_3_alg».proof.Proof.Tail

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-- What core `c`'s buffers hold when the region is left. -/
def leftBy (c : Dev nD) : Valuation τ sig (Elt Ideal) :=
  Pipeline.withArrays spec0 c (entry m c) fun w => (dats m 0 c).arrAt w cfg0.N

theorem leftBy_v1 (c : Dev nD) : leftBy m c (Proc.devRef .tc main_v1) = (dats m 0 c).arrAt 3 cfg0.N := by
  unfold leftBy; exact Pipeline.withArrays_arr spec0 launch0.win.arr_inj c _ _ 3
theorem leftBy_arg0 (c : Dev nD) : leftBy m c (Proc.devRef .tc main_arg0) = m ((c : Thread nD τ).loc main_arg0) := by
  unfold leftBy
  exact (Pipeline.withArrays_arr spec0 launch0.win.arr_inj c _ _ 1).trans
    (((dats m 0 c).arrAt_in 1 rfl _).trans ((A_eq m c 1).trans (entry_main_arg0 m c)))
theorem leftBy_arg1 (c : Dev nD) : leftBy m c (Proc.devRef .tc main_arg1) = m ((c : Thread nD τ).loc main_arg1) := by
  unfold leftBy
  exact (Pipeline.withArrays_of_ne spec0 c (entry m c) _ main_arg1 (by decide)).trans (entry_main_arg1 m c)
theorem leftBy_arg3 (c : Dev nD) : leftBy m c (Proc.devRef .tc main_arg3) = m ((c : Thread nD τ).loc main_arg3) := by
  unfold leftBy
  exact (Pipeline.withArrays_of_ne spec0 c (entry m c) _ main_arg3 (by decide)).trans (entry_main_arg3 m c)
theorem leftBy_arg4 (c : Dev nD) : leftBy m c (Proc.devRef .tc main_arg4) = m ((c : Thread nD τ).loc main_arg4) := by
  unfold leftBy
  exact (Pipeline.withArrays_of_ne spec0 c (entry m c) _ main_arg4 (by decide)).trans (entry_main_arg4 m c)

/-- The first result is the loss. -/
theorem loss_value (c : Dev nD) :
    Pipeline.afterTail₀ cfgs (dats m) 0 (entry m) tail c main_v14
      = fun _ => (lossG (argU m c) (argV m c) (argR m c) : EReal) := by
  show StableHlo.after (Cert.KernelIdeal.Tail.tailOps).flatten (leftBy m c) (Proc.devRef .tc main_v14) = _
  refine (Cert.KernelIdeal.Tail.loss_after (leftBy m c)).trans ?_
  funext _
  have e1 : Cert.KernelIdeal.Tail.outArr (leftBy m c) (ix2 (0 : Fin 16) (0 : Fin 128)) = coreTotal m c 0 :=
    (congrFun (leftBy_v1 m c) (ix2 (0 : Fin 16) (0 : Fin 128))).trans (res_first m c)
  have e2 : Cert.KernelIdeal.Tail.outArr (leftBy m c) (ix2 (8 : Fin 16) (0 : Fin 128)) = coreTotal m c 1 :=
    (congrFun (leftBy_v1 m c) (ix2 (8 : Fin 16) (0 : Fin 128))).trans (res_second m c)
  rw [e1, e2, leftBy_arg0, leftBy_arg1, totals_sum]
  rfl

/-- The second result, for row numbers inside the tables, is the predictions. -/
theorem preds_value (c : Dev nD) (hu : InRange (m ((c : Thread nD τ).loc main_arg3))) (hv : InRange (m ((c : Thread nD τ).loc main_arg4))) :
    Pipeline.afterTail₀ cfgs (dats m) 0 (entry m) tail c main_v20
      = fun n => (predsG (argU m c) (argV m c) (m ((c : Thread nD τ).loc main_arg3)) (m ((c : Thread nD τ).loc main_arg4)) (n 0) : EReal) := by
  show StableHlo.after (Cert.KernelIdeal.Tail.tailOps).flatten (leftBy m c) (Proc.devRef .tc main_v20) = _
  refine (Cert.KernelIdeal.Tail.preds_after (leftBy m c) (by rw [leftBy_arg3]; exact hu) (by rw [leftBy_arg4]; exact hv)).trans ?_
  funext n
  rw [leftBy_arg0, leftBy_arg1, leftBy_arg3, leftBy_arg4]

/-- The run: both results at the specification's values, the five arguments as launched. -/
theorem run_values (hu : ∀ c : Dev nD, InRange (m ((c : Thread nD τ).loc main_arg3))) (hv : ∀ c : Dev nD, InRange (m ((c : Thread nD τ).loc main_arg4))) :
    θ_run defs (onTc (τ := τ) (main (F := Ideal))) ⟨m, fun _ => 0, ρ⟩ (fun r => ∀ c : Dev nD,
      r.2.mem ((c.tc : Thread nD τ).loc main_v14) = (fun _ => (lossG (argU m c) (argV m c) (argR m c) : EReal))
      ∧ r.2.mem ((c.tc : Thread nD τ).loc main_v20) = (fun n => (predsG (argU m c) (argV m c) (m ((c : Thread nD τ).loc main_arg3)) (m ((c : Thread nD τ).loc main_arg4)) (n 0) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (loss_value m c),
     ((h c).2 main_v20 (Pipeline.mem_restRefs_of main_v20 (by decide) (by decide))).trans (preds_value m c (hu c) (hv c)),
     ((h c).1 1).trans (((dats m 0 c).arrAt_in 1 rfl _).trans ((A_eq m c 1).trans (entry_main_arg0 m c))),
     ((h c).2 main_arg1 (Pipeline.mem_restRefs_of main_arg1 (by decide) (by decide))).trans (end_main_arg1 m (dats m) c),
     ((h c).1 0).trans (((dats m 0 c).arrAt_in 0 rfl _).trans ((A_eq m c 0).trans (entry_main_arg2 m c))),
     ((h c).2 main_arg3 (Pipeline.mem_restRefs_of main_arg3 (by decide) (by decide))).trans (end_main_arg3 m (dats m) c),
     ((h c).2 main_arg4 (Pipeline.mem_restRefs_of main_arg4 (by decide) (by decide))).trans (end_main_arg4 m (dats m) c)⟩)
    (run_main m ρ)

end Cert.KernelIdeal.Hand

end
-- ==== Proof.PreIdx.lean ====
/- The precondition read back: the row numbers it admits. -/
import proofs.«419446_j32796370272277_3_alg».proof.Pre_finite_inputs
import proofs.«419446_j32796370272277_3_alg».proof.Proof.Spec
import Idealize.ShloMosaic.Lib.ValueIdx
import Idealize.ShloMosaic.Lib.ReduceAll
import Idealize.ShloMosaic.Lib.StableHlo.Predicate

noncomputable section

open scoped BigOperators

namespace Cert.PreIdx

open Idealize.ShloMosaic Idealize.ShloMosaic.ValueIdx

/-- Where the precondition holds, both lists of row numbers lie in [−12000, 12000). -/
theorem inRange_of_pre [Cert.Pre_finite_inputs.Facts]
    (U V : FVec Ideal Cert.Pre_finite_inputs.S12000x5 .f32) (R : FVec Ideal Cert.Pre_finite_inputs.S12000x12000 .f32)
    (u v : IVec Cert.Pre_finite_inputs.S1000000 32)
    (h : Cert.Pre_finite_inputs.fn (F := Ideal) U V R u v = fun _ => 1#1) :
    Cert.Spec.InRange u ∧ Cert.Spec.InRange v := by
  -- the predicate's result has a single index
  haveI : Subsingleton Cert.Pre_finite_inputs.S_.Idx := ⟨fun a b => funext fun d => d.elim0⟩
  -- the predicate is a conjunction of seven bits; it is 1, so each conjunct is 1. The last four are the
  -- conjunctions over all n of: −12000 ≤ u n, u n < 12000, −12000 ≤ v n, v n < 12000 (signed compares)
  have h0 := congrFun h ValueIdx.ix0
  dsimp only [Cert.Pre_finite_inputs.fn, Cert.Pre_finite_inputs.fn_part1, andi] at h0
  obtain ⟨h1, hv2⟩ := IntOp.andi_eq_one.1 h0
  obtain ⟨h2, hv1⟩ := IntOp.andi_eq_one.1 h1
  obtain ⟨h3, hu2⟩ := IntOp.andi_eq_one.1 h2
  obtain ⟨-, hu1⟩ := IntOp.andi_eq_one.1 h3
  clear h0 h1 h2 h3
  -- the two bounds, read signed: the word 4294955296 is −12000
  have cneg : (4294955296#32 : BitVec 32).toInt = -12000 := by decide
  have cpos : (12000#32 : BitVec 32).toInt = 12000 := by decide
  -- a conjunction over all n that is 1 is 1 at each n; there the compare against the broadcast constant
  -- is the order of the signed readings
  refine ⟨fun n => ⟨?_, ?_⟩, fun n => ⟨?_, ?_⟩⟩
  · have e := IntOp.cmpi_sge.1 (Host.reduce_andi_all _ _ _ _ _ hu1 n)
    rw [← cneg]; exact e
  · have e := IntOp.cmpi_slt.1 (Host.reduce_andi_all _ _ _ _ _ hu2 n)
    rw [← cpos]; exact e
  · have e := IntOp.cmpi_sge.1 (Host.reduce_andi_all _ _ _ _ _ hv1 n)
    rw [← cneg]; exact e
  · have e := IntOp.cmpi_slt.1 (Host.reduce_andi_all _ _ _ _ _ hv2 n)
    rw [← cpos]; exact e

end Cert.PreIdx

end
-- ==== Proof.RefValue.lean ====
/- What the reference computes, read index by index: the specification's loss and predictions. -/
import proofs.«419446_j32796370272277_3_alg».proof.Proof.Gen.ReferenceIdeal.Run
import proofs.«419446_j32796370272277_3_alg».proof.Proof.Gen.ReferenceIdeal.Read
import proofs.«419446_j32796370272277_3_alg».proof.Proof.Spec
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal

/-- The mask: the comparison "x ≠ 0" read as an unsigned integer is 1 at a nonzero x and 0 at 0. -/
theorem obs_eq (x : EReal) :
    FloatOps.uitofp (F := Ideal) .f32 (FloatOps.cmpf (F := Ideal) (φ := .f32) .une x (FloatOps.ofBits .f32 0x00000000#32))
      = Cert.Spec.obs x := by
  show (((BitVec.ofBool (decide (x ≠ Ideal.ofBits .f32 0x00000000#32))).toNat : ℝ) : EReal) = if x ≠ 0 then 1 else 0
  rw [Ideal.ofBits_zero_f32]
  by_cases h : x = 0
  · simp [h]
  · simp [h]

/-- The product U · Vᵀ at (i, j) is the sum over the five latent dimensions. -/
theorem dot_eq [Cert.ReferenceIdeal.Facts] (U V : FVec Ideal S12000x5 .f32) (i j : Fin 12000) :
    Read.val_main_v4 (F := Ideal) U V (ix2 i j) = ∑ k : Fin 5, U (ix2 i k) * V (ix2 j k) := by
  rw [Read.val_main_v4_apply]
  refine Finset.sum_congr rfl fun k _ => ?_
  rw [Read.val_main_v3_apply]
  have e1 : Read.lidx_main_v4 (ix2 i j) k = ix2 i k := by
    funext a; match a with | ⟨0, _⟩ => rfl | ⟨1, _⟩ => rfl
  have e2 : Read.idx_main_v3 (Read.ridx_main_v4 (ix2 i j) k) = ix2 j k := by
    funext a; match a with | ⟨0, _⟩ => rfl | ⟨1, _⟩ => rfl
  rw [e1, e2]

/-- One rating's masked squared error, multiplied in the reference's order. -/
theorem sqErr_eq [Cert.ReferenceIdeal.Facts] (U V : FVec Ideal S12000x5 .f32) (R : FVec Ideal S12000x12000 .f32) (i j : Fin 12000) :
    Read.val_main_v7 (F := Ideal) U V R (ix2 i j) = Cert.Spec.sqErr U V R i j := by
  rw [Read.val_main_v7_apply, Read.val_main_v6_apply, Read.val_main_v5_apply, Read.val_main_v2_apply,
    Read.val_main_v1_apply, Read.val_main_v0_apply, Read.val_main_cst_apply, dot_eq, obs_eq]
  rfl

/-- The wrap both programs apply to a row number, as one word. -/
theorem wrap_eq (x : BitVec 32) :
    Scalar.select (IntOp.cmpi .slt x 0#32) (IntOp.addi x 12000#32) x = Cert.Spec.wrapRow x := by
  unfold Cert.Spec.wrapRow
  by_cases h : x.toInt < 0
  · have hc : IntOp.cmpi .slt x 0#32 = 1#1 := by
      show BitVec.ofBool (x.slt 0#32) = 1#1
      have hs : x.slt 0#32 = true := by simp [BitVec.slt, h]
      rw [hs]; rfl
    rw [hc, select_one, if_pos h]; rfl
  · have hc : IntOp.cmpi .slt x 0#32 = 0#1 := by
      show BitVec.ofBool (x.slt 0#32) = 0#1
      have hs : x.slt 0#32 = false := by simp [BitVec.slt, h]
      rw [hs]; rfl
    rw [hc, select_zero, if_neg h]

/-- Column 0 of the start indices is the wrapped row number. -/
theorem start_row [Cert.ReferenceIdeal.Facts] (u : IVec S1000000 32) (n : Fin 1000000) :
    Read.val_main_v24 (F := Ideal) u (ix2 n (0 : Fin 2)) = Cert.Spec.wrapRow (u (ix1 n)) := by
  unfold Read.val_main_v24
  refine (concatenate_pair_apply_left (t := S1000000x2) (s₁ := S1000000x1) (s₂ := S1000000x1) (1 : Fin 2) _ _ _ (ix2 n (0 : Fin 2)) rfl (ix2 n (0 : Fin 1)) (fun b => by
    match b with
    | ⟨0, _⟩ => rfl
    | ⟨1, _⟩ => rfl)).trans ?_
  rw [Read.val_main_v22_apply, Read.val_main_v21_apply, Read.val_main_v18_apply, Read.val_main_v20_apply,
    Read.val_main_v17_apply, Read.val_main_v19_apply, Read.val_main_c_apply, Read.val_main_c_5_apply]
  have e : Read.idx_main_v22 (ix2 n (0 : Fin 1)) = ix1 n := by
    funext a; match a with | ⟨0, _⟩ => rfl
  rw [e]
  exact wrap_eq _

/-- Column 1 of the start indices is zero. -/
theorem start_col [Cert.ReferenceIdeal.Facts] (u : IVec S1000000 32) (n : Fin 1000000) :
    Read.val_main_v24 (F := Ideal) u (ix2 n (1 : Fin 2)) = 0#32 := by
  unfold Read.val_main_v24
  refine (concatenate_pair_apply_right (t := S1000000x2) (s₁ := S1000000x1) (s₂ := S1000000x1) (1 : Fin 2) _ _ _ (ix2 n (1 : Fin 2)) rfl rfl (ix2 n (0 : Fin 1)) (fun b hb => by
    match b with
    | ⟨0, _⟩ => rfl
    | ⟨1, _⟩ => exact absurd rfl hb) rfl).trans ?_
  rw [Read.val_main_v23_apply, Read.val_main_c_6_apply]

/-- The gather at result index (n, k): with start index (row, 0) and slices of one row by four columns, the operand at
    the row read signed and clamped into the table, column k. -/
theorem gather_row [Cert.ReferenceIdeal.Facts] {α : Type} (X : S12000x5.Idx → α) (idx : IVec S1000000x2 32)
    (n : Fin 1000000) (k : Fin 4) (x : BitVec 32)
    (h0 : idx (ix2 n (0 : Fin 2)) = Cert.Spec.wrapRow x) (h1 : idx (ix2 n (1 : Fin 2)) = 0#32) :
    Host.gather gather_S12000x5_S1000000x2_S1000000x4_1_0_n_n_01_1_14 X idx (ix2 n k)
      = X (ix2 (Cert.Spec.rowOf x) (Fin.castSucc k)) := by
  unfold Host.gather
  congr 1
  funext a
  refine Fin.ext ?_
  match a with
  | ⟨0, _⟩ =>
    show gather_S12000x5_S1000000x2_S1000000x4_1_0_n_n_01_1_14.start (ix2 n k) idx 0
        + gather_S12000x5_S1000000x2_S1000000x4_1_0_n_n_01_1_14.batchCoord (ix2 n k) 0
        + gather_S12000x5_S1000000x2_S1000000x4_1_0_n_n_01_1_14.offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S12000x5_S1000000x2_S1000000x4_1_0_n_n_01_1_14.startIndexMap by decide)]
    have hsi : gather_S12000x5_S1000000x2_S1000000x4_1_0_n_n_01_1_14.siIdx (ix2 n k)
        ⟨List.idxOf (0 : Fin 2) gather_S12000x5_S1000000x2_S1000000x4_1_0_n_n_01_1_14.startIndexMap,
          List.idxOf_lt_length_iff.2 (by decide)⟩ = ix2 n (0 : Fin 2) := by
      funext b; refine Fin.ext ?_
      match b with
      | ⟨0, _⟩ => rfl
      | ⟨1, _⟩ => rfl
    rw [hsi, h0]
    rfl
  | ⟨1, _⟩ =>
    show gather_S12000x5_S1000000x2_S1000000x4_1_0_n_n_01_1_14.start (ix2 n k) idx 1
        + gather_S12000x5_S1000000x2_S1000000x4_1_0_n_n_01_1_14.batchCoord (ix2 n k) 1
        + gather_S12000x5_S1000000x2_S1000000x4_1_0_n_n_01_1_14.offCoord (ix2 n k) 1 = _
    rw [GatherDims.batchCoord_eq_zero _ _ _ List.not_mem_nil]
    simp only [Nat.add_zero]
    unfold GatherDims.start GatherDims.offCoord
    rw [dif_pos (show (1 : Fin 2) ∈ gather_S12000x5_S1000000x2_S1000000x4_1_0_n_n_01_1_14.startIndexMap by decide),
      dif_pos (show (1 : Fin 2) ∈ gather_S12000x5_S1000000x2_S1000000x4_1_0_n_n_01_1_14.sKept by decide)]
    have hsi : gather_S12000x5_S1000000x2_S1000000x4_1_0_n_n_01_1_14.siIdx (ix2 n k)
        ⟨List.idxOf (1 : Fin 2) gather_S12000x5_S1000000x2_S1000000x4_1_0_n_n_01_1_14.startIndexMap,
          List.idxOf_lt_length_iff.2 (by decide)⟩ = ix2 n (1 : Fin 2) := by
      funext b; refine Fin.ext ?_
      match b with
      | ⟨0, _⟩ => rfl
      | ⟨1, _⟩ => rfl
    rw [hsi, h1]
    show min (0#32 : BitVec 32).toInt.toNat _ + k.val = k.val
    simp

/-- A gathered factor at (n, k) is the named row's k-th latent dimension. -/
theorem gathered [Cert.ReferenceIdeal.Facts] (X : FVec Ideal S12000x5 .f32) (u : IVec S1000000 32) (n : Fin 1000000) (k : Fin 4) :
    Read.val_main_v25 (F := Ideal) X u (ix2 n k) = X (ix2 (Cert.Spec.rowOf (u (ix1 n))) (Fin.castSucc k)) := by
  unfold Read.val_main_v25
  exact gather_row X _ n k (u (ix1 n)) (start_row u n) (start_col u n)

/-- The reference's loss term is the specification's loss. -/
theorem loss_eq [Cert.ReferenceIdeal.Facts] (U V : FVec Ideal S12000x5 .f32) (R : FVec Ideal S12000x12000 .f32) :
    addf (addf (Host.reduceAdd (mulf (mulf (uitofp .f32 (cmpf .une R (broadcastInDim S12000x12000 ![] Facts₀.bcast_S_S12000x12000 (constant S_ .f32 0x00000000#32)))) (subf R (Host.dotGeneral dot_S12000x5_S5x12000_S12000x12000_1_0_0_1_n_n none U (transpose S5x12000 [1, 0] V Facts₀.transposes_S12000x5_S5x12000_1_0)))) (subf R (Host.dotGeneral dot_S12000x5_S5x12000_S12000x12000_1_0_0_1_n_n none U (transpose S5x12000 [1, 0] V Facts₀.transposes_S12000x5_S5x12000_1_0)))) (constant S_ .f32 0x00000000#32) Facts₀.reducesTo_S12000x12000_S_d0_1 Facts₀.h_S_) (mulf (constant S_ .f32 0x3C23D70A#32) (Host.reduceAdd (mulf U U) (constant S_ .f32 0x00000000#32) Facts₀.reducesTo_S12000x5_S_d0_1 Facts₀.h_S_))) (mulf (constant S_ .f32 0x3C23D70A#32) (Host.reduceAdd (mulf V V) (constant S_ .f32 0x00000000#32) Facts₀.reducesTo_S12000x5_S_d0_1 Facts₀.h_S_))
      = fun _ => (Cert.Spec.lossG U V R : EReal) := by
  refine (Read.val_main_v16_eq (F := Ideal) U V R).trans ?_
  funext i
  have h8 : ∑ j : S12000x12000.Idx, Read.val_main_v7 (F := Ideal) U V R j = Cert.Spec.lossCore U V R := by
    rw [sum_idx2]
    exact Finset.sum_congr rfl fun a _ => Finset.sum_congr rfl fun b _ => sqErr_eq U V R a b
  rw [Read.val_main_v16_apply, Read.val_main_v12_apply, Read.val_main_v15_apply, Read.val_main_v11_apply,
    Read.val_main_v8_apply, Read.val_main_v10_apply, Read.val_main_v14_apply, h8,
    Read.val_main_cst_0_apply, Read.val_main_cst_1_apply, Read.val_main_cst_3_apply, Read.val_main_cst_2_apply,
    Read.val_main_cst_4_apply]
  show (Ideal.ofBits .f32 0x00000000#32 + Cert.Spec.lossCore U V R
      + Ideal.ofBits .f32 0x3C23D70A#32 * (Ideal.ofBits .f32 0x00000000#32 + ∑ j : S12000x5.Idx, U j * U j))
      + Ideal.ofBits .f32 0x3C23D70A#32 * (Ideal.ofBits .f32 0x00000000#32 + ∑ j : S12000x5.Idx, V j * V j)
    = (Cert.Spec.lossCore U V R + Cert.Spec.regTerm U) + Cert.Spec.regTerm V
  unfold Cert.Spec.regTerm
  rw [Ideal.ofBits_zero_f32, zero_add (Cert.Spec.lossCore U V R)]

/-- The reference's predictions are the specification's. -/
theorem preds_eq [Cert.ReferenceIdeal.Facts] (U V : FVec Ideal S12000x5 .f32) (u v : IVec S1000000 32) :
    Host.reduceAdd (mulf (Host.gather gather_S12000x5_S1000000x2_S1000000x4_1_0_n_n_01_1_14 U (concatenate S1000000x2 1 [⟨S1000000x1, (broadcastInDim S1000000x1 ![0] Facts₀.bcast_S1000000_S1000000x1_0 (select (cmpi .slt u (broadcastInDim S1000000 ![] Facts₀.bcast_S_S1000000 (constantI S_ 32 0#32))) (addi u (broadcastInDim S1000000 ![] Facts₀.bcast_S_S1000000 (constantI S_ 32 12000#32))) u))⟩, ⟨S1000000x1, (broadcastInDim S1000000x1 ![] Facts₀.bcast_S_S1000000x1 (constantI S_ 32 0#32))⟩] Facts₀.concatenates_S1000000x1_S1000000x1_S1000000x2_d1)) (Host.gather gather_S12000x5_S1000000x2_S1000000x4_1_0_n_n_01_1_14 V (concatenate S1000000x2 1 [⟨S1000000x1, (broadcastInDim S1000000x1 ![0] Facts₀.bcast_S1000000_S1000000x1_0 (select (cmpi .slt v (broadcastInDim S1000000 ![] Facts₀.bcast_S_S1000000 (constantI S_ 32 0#32))) (addi v (broadcastInDim S1000000 ![] Facts₀.bcast_S_S1000000 (constantI S_ 32 12000#32))) v))⟩, ⟨S1000000x1, (broadcastInDim S1000000x1 ![] Facts₀.bcast_S_S1000000x1 (constantI S_ 32 0#32))⟩] Facts₀.concatenates_S1000000x1_S1000000x1_S1000000x2_d1))) (constant S_ .f32 0x00000000#32) Facts₀.reducesTo_S1000000x4_S1000000_d1 Facts₀.h_S_
      = fun n => (Cert.Spec.predsG U V u v (n 0) : EReal) := by
  refine (Read.val_main_v36_eq (F := Ideal) U V u v).trans ?_
  funext i
  obtain ⟨n, rfl⟩ : ∃ n : Fin 1000000, i = ix1 n := ⟨i 0, eq_ix1 i⟩
  rw [Read.val_main_v36_apply, Read.val_main_cst_10_apply]
  show Ideal.ofBits .f32 0x00000000#32 + ∑ k : Fin 4, Read.val_main_v35 (F := Ideal) U V u v (Read.idx_main_v36 (ix1 n) k)
    = Cert.Spec.predsG U V u v n
  rw [Ideal.ofBits_zero_f32, zero_add]
  unfold Cert.Spec.predsG
  refine Finset.sum_congr rfl fun k _ => ?_
  have e : Read.idx_main_v36 (ix1 n) k = ix2 n k := by
    funext a; match a with | ⟨0, _⟩ => rfl | ⟨1, _⟩ => rfl
  have e34 : Read.val_main_v34 (F := Ideal) V v = Read.val_main_v25 (F := Ideal) V v := rfl
  rw [e, Read.val_main_v35_apply, e34, gathered U u n k, gathered V v n k]
  rfl

end Cert.RefValue

end
-- ==== Proof.lean ====
/- The certificate of the loss kernel against its reference, over the extended reals.
   Both programs compute, from two 12000 × 5 factor tables U, V, 12000 × 12000 ratings R and two lists of a million
   row numbers,
     loss  = Σ_{i,j} obs(R i j) · (R i j − Σ_k U i k · V j k)² + λ Σ U² + λ Σ V²   and
     preds n = Σ_{k<4} U (row (u n)) k · V (row (v n)) k.
   The kernel adds the data term up tile by tile (120 rows at a time, fifty tiles on each of two cores, each core's
   running total kept in its result block), the reference all at once: the same finite sum, since addition of
   extended reals is commutative and associative. For the predictions the kernel gathers with a fill value for a row
   number outside the table where the reference gathers the clamped row; they agree for −12000 ≤ x < 12000, the row
   numbers the reference itself can address, which the precondition states.
   The three frames: each program runs to its end without a fault and leaves its arguments as launched — for the
   kernel's two readings from the launch of its region (one module per reading, the same text), for the reference
   from its run. The idealization rewrote nothing, so it preserves the kernel trivially. -/
import proofs.«419446_j32796370272277_3_alg».proof.Defs
import proofs.«419446_j32796370272277_3_alg».proof.Proof.Gen.Kernel
import proofs.«419446_j32796370272277_3_alg».proof.Proof.Gen.KernelIdeal
import proofs.«419446_j32796370272277_3_alg».proof.Proof.Gen.ReferenceIdeal
import proofs.«419446_j32796370272277_3_alg».proof.Proof.Gen.ReferenceIdeal.Run
import proofs.«419446_j32796370272277_3_alg».proof.Proof.Gen.ReferenceIdeal.Read
import proofs.«419446_j32796370272277_3_alg».proof.Proof.Gen.Pre_finite_inputs
import proofs.«419446_j32796370272277_3_alg».proof.Proof.K.Frame
import proofs.«419446_j32796370272277_3_alg».proof.Proof.KI.Final
import proofs.«419446_j32796370272277_3_alg».proof.Proof.PreIdx
import proofs.«419446_j32796370272277_3_alg».proof.Proof.RefValue
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

/-- The reference is straight-line host code: its run, with the two results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

theorem preserves : Cert.preserves_Kernel_KernelIdeal := trivial

/-- Both programs end with the specification's loss and predictions of arguments that agree: the kernel by its
    run read at the two results (the precondition giving the row numbers' range), the reference by its run and the
    two equations that read its terms. -/
theorem algebraic [Cert.KernelIdeal.Facts] [Cert.ReferenceIdeal.Facts] [Cert.Pre_finite_inputs.Facts] :
    Cert.algebraic_KernelIdeal_ReferenceIdeal := by
  intro m ρ m' ρ' hpre hagree
  have hr : ∀ c : Dev Cert.KernelIdeal.nD, _ := fun c => Cert.PreIdx.inRange_of_pre _ _ _ _ _ (hpre c)
  refine ⟨_, _, Cert.KernelIdeal.Hand.run_values m ρ (fun c => (hr c).1) (fun c => (hr c).2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1]
    exact Cert.RefValue.loss_eq _ _ _
  · rw [(hagree c).1, (hagree c).2.1, (hagree c).2.2.2.1, (hagree c).2.2.2.2]
    exact Cert.RefValue.preds_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
